-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128 .f32) (main_arg10 : FVec F S128x40 .f32) (main_arg11 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 96
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S100000x128, .bf16⟩
  | .hbm, ⟨13, _⟩ => ⟨S128x128, .bf16⟩
  | .hbm, ⟨14, _⟩ => ⟨S100000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .bf16⟩
  | .hbm, ⟨34, _⟩ => ⟨S128x128, .bf16⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .bf16⟩
  | .hbm, ⟨55, _⟩ => ⟨S128x128, .bf16⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x1, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .bf16⟩
  | .hbm, ⟨76, _⟩ => ⟨S128x40, .bf16⟩
  | .hbm, ⟨77, _⟩ => ⟨S100000x40, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x40, .f32⟩
  | .hbm, ⟨87, _⟩ => ⟨S1600000x1, .f32⟩
  | .hbm, ⟨88, _⟩ => ⟨S1600000x40, .f32⟩
  | .hbm, ⟨89, _⟩ => ⟨S1600000x40, .f32⟩
  | .hbm, ⟨90, _⟩ => ⟨S_, .f32⟩
  | .hbm, ⟨91, _⟩ => ⟨S100000x40, .f32⟩
  | .hbm, ⟨92, _⟩ => ⟨S1600000x1, .i32⟩
  | .hbm, ⟨93, _⟩ => ⟨S100000x40, .f32⟩
  | .hbm, ⟨94, _⟩ => ⟨S1x40, .f32⟩
  | .hbm, ⟨95, _⟩ => ⟨S100000x40, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .bf16⟩
  | .local _ .vmem, ⟨11, _⟩ => ⟨S4000x128, .bf16⟩
  | .local _ .vmem, ⟨12, _⟩ => ⟨S128x128, .bf16⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S128x128, .bf16⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .bf16⟩
  | .local _ .vmem, ⟨35, _⟩ => ⟨S4000x128, .bf16⟩
  | .local _ .vmem, ⟨36, _⟩ => ⟨S128x40, .bf16⟩
  | .local _ .vmem, ⟨37, _⟩ => ⟨S4000x40, .f32⟩
  | .local _ .vmem, ⟨38, _⟩ => ⟨S4000x40, .f32⟩
  | .local _ .vmem, ⟨39, _⟩ => ⟨S4000x40, .f32⟩
  | .local _ .vmem, ⟨40, _⟩ => ⟨S4000x40, .f32⟩
  | .local _ .vmem, ⟨41, _⟩ => ⟨S1x40, .f32⟩
  | .local _ .vmem, ⟨42, _⟩ => ⟨S4000x40, .f32⟩
  | .local _ .vmem, ⟨43, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_7 : Ref sig .tc := ⟨.hbm, 78, rfl⟩
abbrev main_v57 : Ref sig .tc := ⟨.hbm, 79, rfl⟩
abbrev main_v58 : Ref sig .tc := ⟨.hbm, 80, rfl⟩
abbrev main_c_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S4000x40_S4000x40_0_0 : ∀ a, (![0, 0] : Fin 2 → Nat) a + S4000x40.size a ≤ S4000x40.size a
  h_S4000x40 : 0 < S4000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  shapeCasts_S4000x40_S4000x40 : S4000x40.ShapeCasts S4000x40
  reduces_S4000x40_S4000 : S4000x40.Reduces [1] S4000
  shapeCasts_S4000_S4000x1 : S4000.ShapeCasts S4000x1
  broadcasts_S4000x1_S4000x40 : S4000x1.Broadcasts S4000x40
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .bf16 = 32 ∨ (Rect.block (s := S100000x128) S4000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .bf16 = 32 ∨ (Rect.block (s := S100000x128) S4000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .bf16 = 32 ∨ (Rect.block (s := S128x40) S128x40.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x40.size a ≤ S100000x40.size a
  hwx6_2 : ∀ i : grid6.Coords, EltTy.bits .f32 = 32 ∨ (Rect.block (s := S100000x40) S4000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x40.size a ≤ S100000x40.size a
  hwx7_0 : ∀ i : grid7.Coords, EltTy.bits .f32 = 32 ∨ (Rect.block (s := S100000x40) S4000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x40.size a ≤ S100000x40.size a
  hwx7_2 : ∀ i : grid7.Coords, EltTy.bits .f32 = 32 ∨ (Rect.block (s := S100000x40) S4000x40.size (cc7_transform_2 i) (hinb7_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v36) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v51) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v53) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v54) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S4000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v69) S4000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v71) S4000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x1, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x40, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x40, .f32⟩
  | .hbm, ⟨93, _⟩ => ⟨S1600000x1, .f32⟩
  | .hbm, ⟨94, _⟩ => ⟨S1600000x40, .f32⟩
  | .hbm, ⟨95, _⟩ => ⟨S1600000x40, .f32⟩
  | .hbm, ⟨96, _⟩ => ⟨S_, .f32⟩
  | .hbm, ⟨97, _⟩ => ⟨S100000x40, .f32⟩
  | .hbm, ⟨98, _⟩ => ⟨S1600000x1, .i32⟩
  | .hbm, ⟨99, _⟩ => ⟨S100000x40, .f32⟩
  | .hbm, ⟨100, _⟩ => ⟨S1x40, .f32⟩
  | .hbm, ⟨101, _⟩ => ⟨S100000x40, .f32⟩
  | .hbm, ⟨102, _⟩ => ⟨S100000x40, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x40, .f32⟩
  | .hbm, ⟨110, _⟩ => ⟨S100000x40, .f32⟩
  | .hbm, ⟨111, _⟩ => ⟨S100000x40, .f32⟩
  | .hbm, ⟨112, _⟩ => ⟨S_, .f32⟩
  | .hbm, ⟨113, _⟩ => ⟨S100000, .f32⟩
  | .hbm, ⟨114, _⟩ => ⟨S100000x1, .f32⟩
  | .hbm, ⟨115, _⟩ => ⟨S100000x1, .f32⟩
  | .hbm, ⟨116, _⟩ => ⟨S100000x40, .f32⟩
  | .hbm, ⟨117, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_cst : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_7 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call3_cst : Ref sig .tc := ⟨.hbm, 103, rfl⟩
abbrev main_call3_v0 : Ref sig .tc := ⟨.hbm, 104, rfl⟩
abbrev main_call3_cst_0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_cst_1 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_v73 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The mathematics of the two programs, named once.

  Both programs compute a four-layer graph convolution over 100000 nodes and 1600000 weighted edges.  One layer
  takes the node features `h`, multiplies them by a dense weight matrix, gathers the product's rows at the edges'
  source nodes, scales each gathered row by its edge's weight and sums the rows into the edges' target nodes; a
  bias is added and the result is clamped below at zero (layers one to three, the second and third adding their
  own input back), or normalised row by row by the logarithm of the softmax (layer four).

  Index-level readings (`mm128`, `mm40`, `biasRelu`, `biasReluRes`, `biasLogSoftmax`) say what one dense
  stage holds at an index of its result, over the extended reals.  The sparse aggregation is never opened: it is
  the same sequence of host operations in both programs, carried as one function (`aggK128` / `aggK40` in the
  kernel program's own dimension records, `aggR128` / `aggR40` in the reference's; the records are equal).
-/
import proofs.«106134_j40956808135034_1_alg».proof.Proof.Gen.KernelIdeal
import proofs.«106134_j40956808135034_1_alg».proof.Proof.Gen.ReferenceIdeal
import Idealize.ShloMosaic.PureOps.Ideal
import Idealize.ShloMosaic.Lib.ValueIdx

noncomputable section

open scoped BigOperators
open Idealize.ShloMosaic Idealize.ShloMosaic.ValueIdx

namespace Cert.Gcn

/-! ## The dense stages at an index, over the extended reals -/

section Index
open Cert.KernelIdeal

/-- Rows times a 128 × 128 matrix: entry (r, c) is the sum over k of x[r, k] · w[k, c]. -/
def mm128 (x : S100000x128.Idx → EReal) (w : S128x128.Idx → EReal) : S100000x128.Idx → EReal :=
  fun i => ∑ k : Fin 128, x (ix2 (n0 := 100000) (n1 := 128) (i 0) k) * w (ix2 (n0 := 128) (n1 := 128) k (i 1))

/-- Rows times a 128 × 40 matrix. -/
def mm40 (x : S100000x128.Idx → EReal) (w : S128x40.Idx → EReal) : S100000x40.Idx → EReal :=
  fun i => ∑ k : Fin 128, x (ix2 (n0 := 100000) (n1 := 128) (i 0) k) * w (ix2 (n0 := 128) (n1 := 40) k (i 1))

/-- Add the bias row to every row and clamp below at zero. -/
def biasRelu (a : S100000x128.Idx → EReal) (b : S1x128.Idx → EReal) : S100000x128.Idx → EReal :=
  fun i => max (a i + b (ix2 (n0 := 1) (n1 := 128) 0 (i 1))) 0

/-- The same, then add the layer's own input back. -/
def biasReluRes (a : S100000x128.Idx → EReal) (b : S1x128.Idx → EReal) (r : S100000x128.Idx → EReal) :
    S100000x128.Idx → EReal :=
  fun i => max (a i + b (ix2 (n0 := 1) (n1 := 128) 0 (i 1))) 0 + r i

/-- The largest of a row's forty entries (the fold of `max` from the bottom element). -/
def rowMax40 (s : Fin 40 → EReal) : EReal := (Finset.univ : Finset (Fin 40)).fold max ⊥ s

/-- Add the bias row, then the logarithm of the softmax along each row, shifted by the row's maximum:
    with `s q = a[r, q] + b[q]` and `M = max_q s q`, entry (r, c) is `(s c - M) - log (∑_q exp (s q - M))`. -/
def biasLogSoftmax (a : S100000x40.Idx → EReal) (b : S1x40.Idx → EReal) : S100000x40.Idx → EReal :=
  fun i =>
    (((a (ix2 (n0 := 100000) (n1 := 40) (i 0) (i 1)) + b (ix2 (n0 := 1) (n1 := 40) 0 (i 1)))
        - rowMax40 fun q => a (ix2 (n0 := 100000) (n1 := 40) (i 0) q) + b (ix2 (n0 := 1) (n1 := 40) 0 q))
      - Ideal.log (∑ p : Fin 40, Ideal.exp
          ((a (ix2 (n0 := 100000) (n1 := 40) (i 0) p) + b (ix2 (n0 := 1) (n1 := 40) 0 p))
            - rowMax40 fun q => a (ix2 (n0 := 100000) (n1 := 40) (i 0) q) + b (ix2 (n0 := 1) (n1 := 40) 0 q))))

end Index

/-! ## The sparse aggregation and the bias row, as the kernel program's host code spells them -/

section KernelHost
open Cert.KernelIdeal Cert.KernelIdeal.Facts₀
variable {F : FTy → Type} [FloatOps F]

/-- Gather the rows of `h` at the edges' sources (a negative source counted from the end), scale each by its edge
    weight, and sum them into the edges' targets, from zero: width 128. -/
def aggK128 (h : (⟨S100000x128, .f32⟩ : BufTy).Contents (Elt F)) (src tgt : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 tgt)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

/-- The same at width 40. -/
def aggK40 (h : (⟨S100000x40, .f32⟩ : BufTy).Contents (Elt F)) (src tgt : (⟨S1600000, .i32⟩ : BufTy).Contents (Elt F))
    (w : (⟨S1600000, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant (F := F) S_ .f32 0x00000000#32))
    (broadcastInDim S1600000x1 ![0] bcast_S1600000_S1600000x1_0 tgt)
    (mulf
      (Host.gather gather_S100000x40_S1600000x1_S1600000x40_1_0_n_n_0_1_140 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 w)))

/-- A bias vector laid out as one row: width 128. -/
def rowK128 (b : (⟨S128, .f32⟩ : BufTy).Contents (Elt F)) : (⟨S1x128, .f32⟩ : BufTy).Contents (Elt F) :=
  shapeCast S1x128 b shapeCasts_S128_S1x128

/-- A bias vector laid out as one row: width 40. -/
def rowK40 (b : (⟨S40, .f32⟩ : BufTy).Contents (Elt F)) : (⟨S1x40, .f32⟩ : BufTy).Contents (Elt F) :=
  shapeCast S1x40 b shapeCasts_S40_S1x40

end KernelHost

/-! ## The same aggregation in the reference program's records, and the reference's layers -/

section ReferenceHost
open Cert.ReferenceIdeal Cert.ReferenceIdeal.Facts₀
variable {F : FTy → Type} [FloatOps F]

def aggR128 (h : (⟨S100000x128, .f32⟩ : BufTy).Contents (Elt F)) (src tgt : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 tgt)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

def aggR40 (h : (⟨S100000x40, .f32⟩ : BufTy).Contents (Elt F)) (src tgt : (⟨S1600000, .i32⟩ : BufTy).Contents (Elt F))
    (w : (⟨S1600000, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant (F := F) S_ .f32 0x00000000#32))
    (broadcastInDim S1600000x1 ![0] bcast_S1600000_S1600000x1_0 tgt)
    (mulf
      (Host.gather gather_S100000x40_S1600000x1_S1600000x40_1_0_n_n_0_1_140 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 w)))

/-- The reference's dense product, width 128. -/
def dotR128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The reference's dense product, width 40. -/
def dotR40 (x : (⟨S100000x128, .f32⟩ : BufTy).Contents (Elt F)) (w : (⟨S128x40, .f32⟩ : BufTy).Contents (Elt F)) :
    (⟨S100000x40, .f32⟩ : BufTy).Contents (Elt F) :=
  Host.dotGeneral dot_S100000x128_S128x40_S100000x40_1_0_0_1_n_n none x w

/-- The reference's bias add and clamp at zero. -/
def reluR (a : (⟨S100000x128, .f32⟩ : BufTy).Contents (Elt F)) (b : (⟨S128, .f32⟩ : BufTy).Contents (Elt F)) :
    (⟨S100000x128, .f32⟩ : BufTy).Contents (Elt F) :=
  maximumf
    (addf a (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The reference's bias add followed by its row-wise log-softmax. -/
def logSoftmaxR (a : (⟨S100000x40, .f32⟩ : BufTy).Contents (Elt F)) (b : (⟨S40, .f32⟩ : BufTy).Contents (Elt F)) :
    (⟨S100000x40, .f32⟩ : BufTy).Contents (Elt F) :=
  subf
    (subf (addf a (broadcastInDim S100000x40 ![0, 1] bcast_S1x40_S100000x40_0_1 (broadcastInDim S1x40 ![1] bcast_S40_S1x40_1 b)))
      (broadcastInDim S100000x40 ![0, 1] bcast_S100000x1_S100000x40_0_1
        (broadcastInDim S100000x1 ![0] bcast_S100000_S100000x1_0
          (maximumf (broadcastInDim S100000 ![] bcast_S_S100000 (constant (F := F) S_ .f32 0xFF800000#32))
            (Host.reduce FloatOps.maximumf
              (addf a (broadcastInDim S100000x40 ![0, 1] bcast_S1x40_S100000x40_0_1 (broadcastInDim S1x40 ![1] bcast_S40_S1x40_1 b)))
              (constant (F := F) S_ .f32 0xFF800000#32) reducesTo_S100000x40_S100000_d1 h_S_)))))
    (broadcastInDim S100000x40 ![0, 1] bcast_S100000x1_S100000x40_0_1
      (Host.log
        (broadcastInDim S100000x1 ![0] bcast_S100000_S100000x1_0
          (Host.reduceAdd
            (Host.exp
              (subf (addf a (broadcastInDim S100000x40 ![0, 1] bcast_S1x40_S100000x40_0_1 (broadcastInDim S1x40 ![1] bcast_S40_S1x40_1 b)))
                (broadcastInDim S100000x40 ![0, 1] bcast_S100000x1_S100000x40_0_1
                  (broadcastInDim S100000x1 ![0] bcast_S100000_S100000x1_0
                    (maximumf (broadcastInDim S100000 ![] bcast_S_S100000 (constant (F := F) S_ .f32 0xFF800000#32))
                      (Host.reduce FloatOps.maximumf
                        (addf a (broadcastInDim S100000x40 ![0, 1] bcast_S1x40_S100000x40_0_1 (broadcastInDim S1x40 ![1] bcast_S40_S1x40_1 b)))
                        (constant (F := F) S_ .f32 0xFF800000#32) reducesTo_S100000x40_S100000_d1 h_S_))))))
            (constant (F := F) S_ .f32 0x00000000#32) reducesTo_S100000x40_S100000_d1 h_S_))))

/-- The reference's whole result as a function of its twelve arguments. -/
def refOut (x : (⟨S100000x128, .f32⟩ : BufTy).Contents (Elt F)) (src tgt : (⟨S1600000, .i32⟩ : BufTy).Contents (Elt F))
    (w : (⟨S1600000, .f32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x40, .f32⟩ : BufTy).Contents (Elt F)) (b3 : (⟨S40, .f32⟩ : BufTy).Contents (Elt F)) :
    (⟨S100000x40, .f32⟩ : BufTy).Contents (Elt F) :=
  logSoftmaxR
    (aggR40
      (dotR40
        (addf (reluR (aggR128 (dotR128
            (addf (reluR (aggR128 (dotR128
                (reluR (aggR128 (dotR128 x W0) src tgt w) b0)
              W1) src tgt w) b1)
              (reluR (aggR128 (dotR128 x W0) src tgt w) b0))
          W2) src tgt w) b2)
          (addf (reluR (aggR128 (dotR128
                (reluR (aggR128 (dotR128 x W0) src tgt w) b0)
              W1) src tgt w) b1)
            (reluR (aggR128 (dotR128 x W0) src tgt w) b0)))
        W3) src tgt w)
    b3

end ReferenceHost

/-! ## The two programs' records of the aggregation are the same records -/

theorem aggK128_eq {F : FTy → Type} [FloatOps F] : @aggK128 F _ = @aggR128 F _ := rfl
theorem aggK40_eq {F : FTy → Type} [FloatOps F] : @aggK40 F _ = @aggR40 F _ := rfl

end Cert.Gcn

end
-- ==== Proof.KernelHost.lean ====
/-
  The kernel program's host stretches, read back: what each stretch leaves in the arrays the next region reads, as a
  function of the contents the stretch starts from.  A stretch before a dense product rounds the layer's input and the
  weight matrix to bf16; a stretch before a bias stage is the sparse aggregation of the product (carried as one
  function, never opened) and the bias vector laid out as one row.
-/
import proofs.«106134_j40956808135034_1_alg».proof.Proof.Gen.KernelIdeal.Frame
import proofs.«106134_j40956808135034_1_alg».proof.Proof.Spec
import Idealize.ShloMosaic.Lib.StableHlo.Run

set_option maxRecDepth 16384

noncomputable section

namespace Cert.Gcn

open Cert.KernelIdeal Cert.KernelIdeal.Gen Idealize.ShloMosaic Idealize.ShloMosaic.TcCoe Idealize.SL.Sem Idealize.ShloMosaic.StableHlo

variable {F : FTy → Type} [FloatOps F]

theorem stretch0_x (W : Valuation τ sig (Elt F)) :
    StableHlo.after hostOps0 W (Proc.devRef .tc main_v0) = truncf .bf16 (W (Proc.devRef .tc main_arg0)) bitsLt_bf16_f32 := by
  after_results <;> rfl

theorem stretch0_w (W : Valuation τ sig (Elt F)) :
    StableHlo.after hostOps0 W (Proc.devRef .tc main_v1) = truncf .bf16 (W (Proc.devRef .tc main_arg4)) bitsLt_bf16_f32 := by
  after_results <;> rfl

set_option maxHeartbeats 4000000 in
theorem stretch1_agg (W : Valuation τ sig (Elt F)) :
    StableHlo.after hostOps1 W (Proc.devRef .tc main_v15) = aggK128 (W (Proc.devRef .tc main_v2)) (W (Proc.devRef .tc main_arg1)) (W (Proc.devRef .tc main_arg2)) (W (Proc.devRef .tc main_arg3)) := by
  after_results_simp <;> rfl

set_option maxHeartbeats 4000000 in
theorem stretch1_row (W : Valuation τ sig (Elt F)) :
    StableHlo.after hostOps1 W (Proc.devRef .tc main_v16) = rowK128 (W (Proc.devRef .tc main_arg5)) := by
  after_results_simp <;> rfl

theorem stretch2_x (W : Valuation τ sig (Elt F)) :
    StableHlo.after hostOps2 W (Proc.devRef .tc main_v18) = truncf .bf16 (W (Proc.devRef .tc main_v17)) bitsLt_bf16_f32 := by
  after_results <;> rfl

theorem stretch2_w (W : Valuation τ sig (Elt F)) :
    StableHlo.after hostOps2 W (Proc.devRef .tc main_v19) = truncf .bf16 (W (Proc.devRef .tc main_arg6)) bitsLt_bf16_f32 := by
  after_results <;> rfl

set_option maxHeartbeats 4000000 in
theorem stretch3_agg (W : Valuation τ sig (Elt F)) :
    StableHlo.after hostOps3 W (Proc.devRef .tc main_v33) = aggK128 (W (Proc.devRef .tc main_v20)) (W (Proc.devRef .tc main_arg1)) (W (Proc.devRef .tc main_arg2)) (W (Proc.devRef .tc main_arg3)) := by
  after_results_simp <;> rfl

set_option maxHeartbeats 4000000 in
theorem stretch3_row (W : Valuation τ sig (Elt F)) :
    StableHlo.after hostOps3 W (Proc.devRef .tc main_v34) = rowK128 (W (Proc.devRef .tc main_arg7)) := by
  after_results_simp <;> rfl

theorem stretch4_x (W : Valuation τ sig (Elt F)) :
    StableHlo.after hostOps4 W (Proc.devRef .tc main_v36) = truncf .bf16 (W (Proc.devRef .tc main_v35)) bitsLt_bf16_f32 := by
  after_results <;> rfl

theorem stretch4_w (W : Valuation τ sig (Elt F)) :
    StableHlo.after hostOps4 W (Proc.devRef .tc main_v37) = truncf .bf16 (W (Proc.devRef .tc main_arg8)) bitsLt_bf16_f32 := by
  after_results <;> rfl

set_option maxHeartbeats 4000000 in
theorem stretch5_agg (W : Valuation τ sig (Elt F)) :
    StableHlo.after hostOps5 W (Proc.devRef .tc main_v51) = aggK128 (W (Proc.devRef .tc main_v38)) (W (Proc.devRef .tc main_arg1)) (W (Proc.devRef .tc main_arg2)) (W (Proc.devRef .tc main_arg3)) := by
  after_results_simp <;> rfl

set_option maxHeartbeats 4000000 in
theorem stretch5_row (W : Valuation τ sig (Elt F)) :
    StableHlo.after hostOps5 W (Proc.devRef .tc main_v52) = rowK128 (W (Proc.devRef .tc main_arg9)) := by
  after_results_simp <;> rfl

theorem stretch6_x (W : Valuation τ sig (Elt F)) :
    StableHlo.after hostOps6 W (Proc.devRef .tc main_v54) = truncf .bf16 (W (Proc.devRef .tc main_v53)) bitsLt_bf16_f32 := by
  after_results <;> rfl

theorem stretch6_w (W : Valuation τ sig (Elt F)) :
    StableHlo.after hostOps6 W (Proc.devRef .tc main_v55) = truncf .bf16 (W (Proc.devRef .tc main_arg10)) bitsLt_bf16_f32 := by
  after_results <;> rfl

set_option maxHeartbeats 4000000 in
theorem stretch7_agg (W : Valuation τ sig (Elt F)) :
    StableHlo.after hostOps7 W (Proc.devRef .tc main_v69) = aggK40 (W (Proc.devRef .tc main_v56)) (W (Proc.devRef .tc main_arg1)) (W (Proc.devRef .tc main_arg2)) (W (Proc.devRef .tc main_arg3)) := by
  after_results_simp <;> rfl

set_option maxHeartbeats 4000000 in
theorem stretch7_row (W : Valuation τ sig (Elt F)) :
    StableHlo.after hostOps7 W (Proc.devRef .tc main_v70) = rowK40 (W (Proc.devRef .tc main_arg11)) := by
  after_results_simp <;> rfl

end Cert.Gcn

end
-- ==== Proof.KernelCarry.lean ====
/-
  What the kernel program's host stretches and regions leave alone.  The twelve argument arrays are written by no
  host operation and are no region's output, so at every boundary between the program's segments they hold what they
  held at launch; and the first and second layers' results, which the next layer's last stage adds back, are carried
  unchanged across the dense product that runs in between.
-/
import proofs.«106134_j40956808135034_1_alg».proof.Proof.Gen.KernelIdeal.Frame

set_option maxRecDepth 16384

noncomputable section

namespace Cert.Gcn

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The program's twelve argument arrays. -/
def argRefs : List (Ref sig .tc) :=
  [main_arg0, main_arg1, main_arg2, main_arg3, main_arg4, main_arg5, main_arg6, main_arg7, main_arg8, main_arg9, main_arg10, main_arg11]

/-! ## What each host stretch writes

Every host operation writes exactly one reference, its result.  `hostWritesJ` lists the results of stretch `J` in order;
a reference outside the list holds after the stretch what it held before it. -/

/-- The results of host stretch 0, in order. -/
def hostWrites0 : List (Ref sig .tc) :=
  [main_v0, main_v1]

/-- The results of host stretch 1, in order. -/
def hostWrites1 : List (Ref sig .tc) :=
  [main_c, main_v3, main_v4, main_c_0, main_v5, main_v6, main_v7, main_v8, main_v9, main_v10, main_v11, main_v12,
   main_cst, main_v13, main_v14, main_v15, main_v16]

/-- The results of host stretch 2, in order. -/
def hostWrites2 : List (Ref sig .tc) :=
  [main_v18, main_v19]

/-- The results of host stretch 3, in order. -/
def hostWrites3 : List (Ref sig .tc) :=
  [main_c_1, main_v21, main_v22, main_c_2, main_v23, main_v24, main_v25, main_v26, main_v27, main_v28, main_v29,
   main_v30, main_cst_3, main_v31, main_v32, main_v33, main_v34]

/-- The results of host stretch 4, in order. -/
def hostWrites4 : List (Ref sig .tc) :=
  [main_v36, main_v37]

/-- The results of host stretch 5, in order. -/
def hostWrites5 : List (Ref sig .tc) :=
  [main_c_4, main_v39, main_v40, main_c_5, main_v41, main_v42, main_v43, main_v44, main_v45, main_v46, main_v47,
   main_v48, main_cst_6, main_v49, main_v50, main_v51, main_v52]

/-- The results of host stretch 6, in order. -/
def hostWrites6 : List (Ref sig .tc) :=
  [main_v54, main_v55]

/-- A reference that is no result of host stretch 0 is left alone by it: each operation's write set is the singleton of
    its result, and distinct references are distinct device buffers. -/
theorem after_hostOps0_of_not_written (W : Valuation τ sig (Elt F)) (b : Ref sig .tc)
    (hb : ∀ r ∈ hostWrites0, b ≠ r) :
    StableHlo.after hostOps0 W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 1 is left alone by it: each operation's write set is the singleton of
    its result, and distinct references are distinct device buffers. -/
theorem after_hostOps1_of_not_written (W : Valuation τ sig (Elt F)) (b : Ref sig .tc)
    (hb : ∀ r ∈ hostWrites1, b ≠ r) :
    StableHlo.after hostOps1 W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 2 is left alone by it: each operation's write set is the singleton of
    its result, and distinct references are distinct device buffers. -/
theorem after_hostOps2_of_not_written (W : Valuation τ sig (Elt F)) (b : Ref sig .tc)
    (hb : ∀ r ∈ hostWrites2, b ≠ r) :
    StableHlo.after hostOps2 W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 3 is left alone by it: each operation's write set is the singleton of
    its result, and distinct references are distinct device buffers. -/
theorem after_hostOps3_of_not_written (W : Valuation τ sig (Elt F)) (b : Ref sig .tc)
    (hb : ∀ r ∈ hostWrites3, b ≠ r) :
    StableHlo.after hostOps3 W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 4 is left alone by it: each operation's write set is the singleton of
    its result, and distinct references are distinct device buffers. -/
theorem after_hostOps4_of_not_written (W : Valuation τ sig (Elt F)) (b : Ref sig .tc)
    (hb : ∀ r ∈ hostWrites4, b ≠ r) :
    StableHlo.after hostOps4 W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 5 is left alone by it: each operation's write set is the singleton of
    its result, and distinct references are distinct device buffers. -/
theorem after_hostOps5_of_not_written (W : Valuation τ sig (Elt F)) (b : Ref sig .tc)
    (hb : ∀ r ∈ hostWrites5, b ≠ r) :
    StableHlo.after hostOps5 W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A reference that is no result of host stretch 6 is left alone by it: each operation's write set is the singleton of
    its result, and distinct references are distinct device buffers. -/
theorem after_hostOps6_of_not_written (W : Valuation τ sig (Elt F)) (b : Ref sig .tc)
    (hb : ∀ r ∈ hostWrites6, b ≠ r) :
    StableHlo.after hostOps6 W (Proc.devRef .tc b) = W (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-! ## The argument arrays are nobody's result

An argument array is no host operation's result and no region's array (a region that reads one reads it through a
window over a converted or reshaped copy, never over the argument itself). -/

theorem args_not_hostWrites0 : ∀ b ∈ argRefs, ∀ r ∈ hostWrites0, b ≠ r := by decide
theorem args_not_hostWrites1 : ∀ b ∈ argRefs, ∀ r ∈ hostWrites1, b ≠ r := by decide
theorem args_not_hostWrites2 : ∀ b ∈ argRefs, ∀ r ∈ hostWrites2, b ≠ r := by decide
theorem args_not_hostWrites3 : ∀ b ∈ argRefs, ∀ r ∈ hostWrites3, b ≠ r := by decide
theorem args_not_hostWrites4 : ∀ b ∈ argRefs, ∀ r ∈ hostWrites4, b ≠ r := by decide
theorem args_not_hostWrites5 : ∀ b ∈ argRefs, ∀ r ∈ hostWrites5, b ≠ r := by decide
theorem args_not_hostWrites6 : ∀ b ∈ argRefs, ∀ r ∈ hostWrites6, b ≠ r := by decide

theorem args_not_arr0 : ∀ b ∈ argRefs, ∀ w, Pipeline.arrRef spec0 w ≠ b := by decide
theorem args_not_arr1 : ∀ b ∈ argRefs, ∀ w, Pipeline.arrRef spec1 w ≠ b := by decide
theorem args_not_arr2 : ∀ b ∈ argRefs, ∀ w, Pipeline.arrRef spec2 w ≠ b := by decide
theorem args_not_arr3 : ∀ b ∈ argRefs, ∀ w, Pipeline.arrRef spec3 w ≠ b := by decide
theorem args_not_arr4 : ∀ b ∈ argRefs, ∀ w, Pipeline.arrRef spec4 w ≠ b := by decide
theorem args_not_arr5 : ∀ b ∈ argRefs, ∀ w, Pipeline.arrRef spec5 w ≠ b := by decide
theorem args_not_arr6 : ∀ b ∈ argRefs, ∀ w, Pipeline.arrRef spec6 w ≠ b := by decide

/-! ## The arguments at the even boundaries

Each boundary is reached from the one two steps back by a host stretch and a region; neither touches an argument. -/

theorem args_W2 (c : Dev nD) : ∀ b ∈ argRefs, W2 m ρ c (Proc.devRef .tc b) = W0 m ρ c (Proc.devRef .tc b) := by
  intro b hb
  calc W2 m ρ c (Proc.devRef .tc b)
    _ = W1 m ρ c (Proc.devRef .tc b) := W2_of_ne m ρ c b (args_not_arr0 b hb)
    _ = W0 m ρ c (Proc.devRef .tc b) := after_hostOps0_of_not_written _ b (args_not_hostWrites0 b hb)

theorem args_W4 (c : Dev nD) : ∀ b ∈ argRefs, W4 m ρ c (Proc.devRef .tc b) = W0 m ρ c (Proc.devRef .tc b) := by
  intro b hb
  calc W4 m ρ c (Proc.devRef .tc b)
    _ = W3 m ρ c (Proc.devRef .tc b) := W4_of_ne m ρ c b (args_not_arr1 b hb)
    _ = W2 m ρ c (Proc.devRef .tc b) := after_hostOps1_of_not_written _ b (args_not_hostWrites1 b hb)
    _ = W0 m ρ c (Proc.devRef .tc b) := args_W2 m ρ c b hb

theorem args_W6 (c : Dev nD) : ∀ b ∈ argRefs, W6 m ρ c (Proc.devRef .tc b) = W0 m ρ c (Proc.devRef .tc b) := by
  intro b hb
  calc W6 m ρ c (Proc.devRef .tc b)
    _ = W5 m ρ c (Proc.devRef .tc b) := W6_of_ne m ρ c b (args_not_arr2 b hb)
    _ = W4 m ρ c (Proc.devRef .tc b) := after_hostOps2_of_not_written _ b (args_not_hostWrites2 b hb)
    _ = W0 m ρ c (Proc.devRef .tc b) := args_W4 m ρ c b hb

theorem args_W8 (c : Dev nD) : ∀ b ∈ argRefs, W8 m ρ c (Proc.devRef .tc b) = W0 m ρ c (Proc.devRef .tc b) := by
  intro b hb
  calc W8 m ρ c (Proc.devRef .tc b)
    _ = W7 m ρ c (Proc.devRef .tc b) := W8_of_ne m ρ c b (args_not_arr3 b hb)
    _ = W6 m ρ c (Proc.devRef .tc b) := after_hostOps3_of_not_written _ b (args_not_hostWrites3 b hb)
    _ = W0 m ρ c (Proc.devRef .tc b) := args_W6 m ρ c b hb

theorem args_W10 (c : Dev nD) : ∀ b ∈ argRefs, W10 m ρ c (Proc.devRef .tc b) = W0 m ρ c (Proc.devRef .tc b) := by
  intro b hb
  calc W10 m ρ c (Proc.devRef .tc b)
    _ = W9 m ρ c (Proc.devRef .tc b) := W10_of_ne m ρ c b (args_not_arr4 b hb)
    _ = W8 m ρ c (Proc.devRef .tc b) := after_hostOps4_of_not_written _ b (args_not_hostWrites4 b hb)
    _ = W0 m ρ c (Proc.devRef .tc b) := args_W8 m ρ c b hb

theorem args_W12 (c : Dev nD) : ∀ b ∈ argRefs, W12 m ρ c (Proc.devRef .tc b) = W0 m ρ c (Proc.devRef .tc b) := by
  intro b hb
  calc W12 m ρ c (Proc.devRef .tc b)
    _ = W11 m ρ c (Proc.devRef .tc b) := W12_of_ne m ρ c b (args_not_arr5 b hb)
    _ = W10 m ρ c (Proc.devRef .tc b) := after_hostOps5_of_not_written _ b (args_not_hostWrites5 b hb)
    _ = W0 m ρ c (Proc.devRef .tc b) := args_W10 m ρ c b hb

theorem args_W14 (c : Dev nD) : ∀ b ∈ argRefs, W14 m ρ c (Proc.devRef .tc b) = W0 m ρ c (Proc.devRef .tc b) := by
  intro b hb
  calc W14 m ρ c (Proc.devRef .tc b)
    _ = W13 m ρ c (Proc.devRef .tc b) := W14_of_ne m ρ c b (args_not_arr6 b hb)
    _ = W12 m ρ c (Proc.devRef .tc b) := after_hostOps6_of_not_written _ b (args_not_hostWrites6 b hb)
    _ = W0 m ρ c (Proc.devRef .tc b) := args_W12 m ρ c b hb

/-- The first layer's result, as the third region left it, is what the second layer's last region reads. -/
theorem keep_v17 (c : Dev nD) : W7 m ρ c (Proc.devRef .tc main_v17) = W4 m ρ c (Proc.devRef .tc main_v17) :=
  calc W7 m ρ c (Proc.devRef .tc main_v17)
    _ = W6 m ρ c (Proc.devRef .tc main_v17) := after_hostOps3_of_not_written _ main_v17 (by decide)
    _ = W5 m ρ c (Proc.devRef .tc main_v17) := W6_of_ne m ρ c main_v17 (by decide)
    _ = W4 m ρ c (Proc.devRef .tc main_v17) := after_hostOps2_of_not_written _ main_v17 (by decide)

/-- The second layer's result, as its last region left it, is what the third layer's last region reads. -/
theorem keep_v35 (c : Dev nD) : W11 m ρ c (Proc.devRef .tc main_v35) = W8 m ρ c (Proc.devRef .tc main_v35) :=
  calc W11 m ρ c (Proc.devRef .tc main_v35)
    _ = W10 m ρ c (Proc.devRef .tc main_v35) := after_hostOps5_of_not_written _ main_v35 (by decide)
    _ = W9 m ρ c (Proc.devRef .tc main_v35) := W10_of_ne m ρ c main_v35 (by decide)
    _ = W8 m ρ c (Proc.devRef .tc main_v35) := after_hostOps4_of_not_written _ main_v35 (by decide)

end Cert.Gcn

end
-- ==== Proof.RegionMatmul.lean ====
/-
  The four dense products the kernel program computes on the chip, each a grid of 25 row blocks of 4000 rows: after the region the product's array holds, at (r, c), the sum over k of the left operand's [r, k] times the right operand's [k, c].
-/
import proofs.«106134_j40956808135034_1_alg».proof.Proof.Gen.KernelIdeal.Frame
import proofs.«106134_j40956808135034_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn

open Cert.KernelIdeal Cert.KernelIdeal.Gen Idealize.ShloMosaic Idealize.ShloMosaic.TcCoe Idealize.ShloMosaic.ValueIdx
open Idealize.ShloMosaic.Pipeline (Dat)

-- the TensorCore's buffer contents when the region is entered, a parameter
variable (V : (c : Dev nD) → (b : Ref sig .tc) → Buf (Elt Ideal) ((c : Thread nD τ).loc b))

/-! ## The 128 × 128 product: its contraction's index maps, axis by axis -/

/-- The left operand is read at the output's row … -/
theorem lhs_mm128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction's coordinate as its column; -/
theorem lhs_mm128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the contraction's coordinate as its row … -/
theorem rhs_mm128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
theorem rhs_mm128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- One block's product at an index: the sum over k of the row block's [p, k] times the matrix's [k, q]. -/
theorem blockProduct128_apply (x0 : Vec Ideal S4000x128 .bf16) (x1 : Vec Ideal S128x128 .bf16) (p : Fin 4000) (q : Fin 128) :
    k0_pay1 (F := Ideal) x0 x1 (ix2 p q) = ∑ k : Fin 128, x0 (ix2 p k) * x1 (ix2 k q) := by
  unfold k0_pay1
  rw [shapeCast_self, shapeCast_self]
  show FloatOps.matmul _ _ _ _ _ _ = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

/-- A block's product at (p, q) is the whole product at the array index whose row the block's rows and whose column the
    matrix's columns are read at. -/
theorem blockProduct128_eq_mm128 (A : S100000x128.Idx → EReal) (B : S128x128.Idx → EReal)
    (x0 : Vec Ideal S4000x128 .bf16) (x1 : Vec Ideal S128x128 .bf16) (i : S100000x128.Idx) (p : Fin 4000) (q : Fin 128)
    (h0 : ∀ k : Fin 128, x0 (ix2 p k) = A (ix2 (n0 := 100000) (n1 := 128) (i 0) k))
    (h1 : ∀ k : Fin 128, x1 (ix2 k q) = B (ix2 (n0 := 128) (n1 := 128) k (i 1))) :
    k0_pay1 (F := Ideal) x0 x1 (ix2 p q) = mm128 A B i := by
  rw [blockProduct128_apply]
  unfold mm128
  exact Finset.sum_congr rfl fun k _ => by rw [h0 k, h1 k]

/-- The zero offsets, however spelt. -/
private theorem zeroOffsets : (![0, 0] : Fin 2 → Nat) = fun _ => 0 := funext fun a => by fin_cases a <;> rfl

/-- Regions 2 and 4 run the same block product as region 0: the same operations on the same shapes. -/
theorem k2_pay1_eq (x0 : Vec Ideal S4000x128 .bf16) (x1 : Vec Ideal S128x128 .bf16) :
    k2_pay1 (F := Ideal) x0 x1 = k0_pay1 (F := Ideal) x0 x1 := rfl
theorem k4_pay1_eq (x0 : Vec Ideal S4000x128 .bf16) (x1 : Vec Ideal S128x128 .bf16) :
    k4_pay1 (F := Ideal) x0 x1 = k0_pay1 (F := Ideal) x0 x1 := rfl

/-! ## The 128 × 40 product: its contraction's index maps, axis by axis -/

/-- The left operand is read at the output's row … -/
theorem lhs_mm40_0 (i : S4000x40.Idx) (q : dot_S4000x128_S128x40_S4000x40_1_0_0_1_n_n.contr.Idx) :
    (dot_S4000x128_S128x40_S4000x40_1_0_0_1_n_n.lhsIdx i q 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
/-- … and the contraction's coordinate as its column; -/
theorem lhs_mm40_1 (i : S4000x40.Idx) (q : dot_S4000x128_S128x40_S4000x40_1_0_0_1_n_n.contr.Idx) :
    (dot_S4000x128_S128x40_S4000x40_1_0_0_1_n_n.lhsIdx i q 1).val = (q ⟨0, by decide⟩).val :=
  dot_S4000x128_S128x40_S4000x40_1_0_0_1_n_n.lhsIdx_val_of_single rfl i q
/-- the right operand at the contraction's coordinate as its row … -/
theorem rhs_mm40_0 (i : S4000x40.Idx) (q : dot_S4000x128_S128x40_S4000x40_1_0_0_1_n_n.contr.Idx) :
    (dot_S4000x128_S128x40_S4000x40_1_0_0_1_n_n.rhsIdx i q 0).val = (q ⟨0, by decide⟩).val :=
  dot_S4000x128_S128x40_S4000x40_1_0_0_1_n_n.rhsIdx_val_of_single rfl i q
/-- … and the output's column. -/
theorem rhs_mm40_1 (i : S4000x40.Idx) (q : dot_S4000x128_S128x40_S4000x40_1_0_0_1_n_n.contr.Idx) :
    (dot_S4000x128_S128x40_S4000x40_1_0_0_1_n_n.rhsIdx i q 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- One block's product at an index: the sum over k of the row block's [p, k] times the matrix's [k, q]. -/
theorem blockProduct40_apply (x0 : Vec Ideal S4000x128 .bf16) (x1 : Vec Ideal S128x40 .bf16) (p : Fin 4000) (q : Fin 40) :
    k6_pay1 (F := Ideal) x0 x1 (ix2 p q) = ∑ k : Fin 128, x0 (ix2 p k) * x1 (ix2 k q) := by
  unfold k6_pay1
  rw [shapeCast_self, shapeCast_self]
  show FloatOps.matmul _ _ _ _ _ _ = _
  rw [Ideal.matmul_constant_zero_apply, ← Equiv.sum_comp (ValueIdx.contrEquiv1 dot_S4000x128_S128x40_S4000x40_1_0_0_1_n_n 128 rfl rfl).symm]
  refine Finset.sum_congr rfl fun k _ => ?_
  have hk := ValueIdx.contrEquiv1_symm_val dot_S4000x128_S128x40_S4000x40_1_0_0_1_n_n 128 rfl rfl k
  have el : dot_S4000x128_S128x40_S4000x40_1_0_0_1_n_n.lhsIdx (ix2 p q) ((ValueIdx.contrEquiv1 dot_S4000x128_S128x40_S4000x40_1_0_0_1_n_n 128 rfl rfl).symm k) = ix2 p k := funext fun a => Fin.ext (by
    match a with
    | ⟨0, _⟩ => exact lhs_mm40_0 _ _
    | ⟨1, _⟩ => exact (lhs_mm40_1 _ _).trans hk)
  have er : dot_S4000x128_S128x40_S4000x40_1_0_0_1_n_n.rhsIdx (ix2 p q) ((ValueIdx.contrEquiv1 dot_S4000x128_S128x40_S4000x40_1_0_0_1_n_n 128 rfl rfl).symm k) = ix2 k q := funext fun a => Fin.ext (by
    match a with
    | ⟨0, _⟩ => exact (rhs_mm40_0 _ _).trans hk
    | ⟨1, _⟩ => exact rhs_mm40_1 _ _)
  rw [el, er]

/-- A block's product at (p, q) is the whole product at the array index whose row the block's rows and whose column the
    matrix's columns are read at. -/
theorem blockProduct40_eq_mm40 (A : S100000x128.Idx → EReal) (B : S128x40.Idx → EReal)
    (x0 : Vec Ideal S4000x128 .bf16) (x1 : Vec Ideal S128x40 .bf16) (i : S100000x40.Idx) (p : Fin 4000) (q : Fin 40)
    (h0 : ∀ k : Fin 128, x0 (ix2 p k) = A (ix2 (n0 := 100000) (n1 := 128) (i 0) k))
    (h1 : ∀ k : Fin 128, x1 (ix2 k q) = B (ix2 (n0 := 128) (n1 := 40) k (i 1))) :
    k6_pay1 (F := Ideal) x0 x1 (ix2 p q) = mm40 A B i := by
  rw [blockProduct40_apply]
  unfold mm40
  exact Finset.sum_congr rfl fun k _ => by rw [h0 k, h1 k]

/-! ## Region 0 -/

/-- The printed index maps over the grid: at point t the row blocks (left operand and product) have block index (t, 0), the
    matrix block index (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem product0_flushed (c : Dev nD) (t : Fin cfg0.N) :
    (dat0 V c).flushed 2 t = ((cfg0.win 2).blk t).view.read (Elt Ideal) (mm128 (V c main_v0) (V c main_v1)) := by
  show (cfg0.win 2).cut (grid0.coords t) ((dat0 V c).after 2 t) = _
  rw [after0_2]
  unfold out0_2
  rw [View.canon_unit_zero zeroOffsets]
  simp only [View.ld_unit_zero (S := S4000x128) zeroOffsets, View.ld_unit_zero (S := S128x128) zeroOffsets]
  obtain ⟨e0, e1, e2, e3, e4, e5⟩ := blockIndex0 t
  funext y
  obtain ⟨p, q, rfl⟩ : ∃ (p : Fin 4000) (q : Fin 128), y = ix2 p q := ⟨y 0, y 1, eq_ix2 y⟩
  show k0_pay1 (F := Ideal) (iblk0 V c 0 t) (iblk0 V c 1 t) (ix2 p q) = mm128 (V c main_v0) (V c main_v1) (((cfg0.win 2).blk t).view.emb (ix2 p q))
  refine blockProduct128_eq_mm128 (V c main_v0) (V c main_v1) (iblk0 V c 0 t) (iblk0 V c 1 t) _ p q (fun k => ?_) (fun k => ?_)
  · show V c main_v0 (((cfg0.win 0).blk t).view.emb (ix2 p k)) = V c main_v0 _
    congr 1
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  · show V c main_v1 (((cfg0.win 1).blk t).view.emb (ix2 k q)) = V c main_v1 _
    congr 1
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the product's array is in point t's block iff each coordinate is in the block's range on its axis. -/
theorem mem_rowBlock0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v2).slice (win0_2.rect t)).set ↔ _
  rw [View.set_slice_whole, Rect.mem_set_unit]
  exact Iff.rfl

/-- Row r lies in the block of point r / 4000: the 25 row blocks cover the array. -/
theorem rowBlocks0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨e0, e1, e2, e3, e4, e5⟩ := blockIndex0 t
  refine ⟨t, flush0_2 t, ?_⟩
  rw [mem_rowBlock0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

theorem region0 (c : Dev nD) : (dat0 V c).arrAt 2 cfg0.N = mm128 (V c main_v0) (V c main_v1) :=
  (dat0 V c).arrAt_eq_of_cover 2 (mm128 (V c main_v0) (V c main_v1)) (fun t _ => product0_flushed V c t) rowBlocks0_cover

/-! ## Region 2 -/

/-- The printed index maps over the grid: at point t the row blocks (left operand and product) have block index (t, 0), the
    matrix block index (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem product2_flushed (c : Dev nD) (t : Fin cfg2.N) :
    (dat2 V c).flushed 2 t = ((cfg2.win 2).blk t).view.read (Elt Ideal) (mm128 (V c main_v18) (V c main_v19)) := by
  show (cfg2.win 2).cut (grid2.coords t) ((dat2 V c).after 2 t) = _
  rw [after2_2]
  unfold out2_2
  rw [View.canon_unit_zero zeroOffsets]
  simp only [View.ld_unit_zero (S := S4000x128) zeroOffsets, View.ld_unit_zero (S := S128x128) zeroOffsets]
  obtain ⟨e0, e1, e2, e3, e4, e5⟩ := blockIndex2 t
  funext y
  obtain ⟨p, q, rfl⟩ : ∃ (p : Fin 4000) (q : Fin 128), y = ix2 p q := ⟨y 0, y 1, eq_ix2 y⟩
  show k2_pay1 (F := Ideal) (iblk2 V c 0 t) (iblk2 V c 1 t) (ix2 p q) = mm128 (V c main_v18) (V c main_v19) (((cfg2.win 2).blk t).view.emb (ix2 p q))
  refine (congrFun (k2_pay1_eq (iblk2 V c 0 t) (iblk2 V c 1 t)) (ix2 p q)).trans <| blockProduct128_eq_mm128 (V c main_v18) (V c main_v19) (iblk2 V c 0 t) (iblk2 V c 1 t) _ p q (fun k => ?_) (fun k => ?_)
  · show V c main_v18 (((cfg2.win 0).blk t).view.emb (ix2 p k)) = V c main_v18 _
    congr 1
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  · show V c main_v19 (((cfg2.win 1).blk t).view.emb (ix2 k q)) = V c main_v19 _
    congr 1
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the product's array is in point t's block iff each coordinate is in the block's range on its axis. -/
theorem mem_rowBlock2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v20).slice (win2_2.rect t)).set ↔ _
  rw [View.set_slice_whole, Rect.mem_set_unit]
  exact Iff.rfl

/-- Row r lies in the block of point r / 4000: the 25 row blocks cover the array. -/
theorem rowBlocks2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨e0, e1, e2, e3, e4, e5⟩ := blockIndex2 t
  refine ⟨t, flush2_2 t, ?_⟩
  rw [mem_rowBlock2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

theorem region2 (c : Dev nD) : (dat2 V c).arrAt 2 cfg2.N = mm128 (V c main_v18) (V c main_v19) :=
  (dat2 V c).arrAt_eq_of_cover 2 (mm128 (V c main_v18) (V c main_v19)) (fun t _ => product2_flushed V c t) rowBlocks2_cover

/-! ## Region 4 -/

/-- The printed index maps over the grid: at point t the row blocks (left operand and product) have block index (t, 0), the
    matrix block index (0, 0). -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem product4_flushed (c : Dev nD) (t : Fin cfg4.N) :
    (dat4 V c).flushed 2 t = ((cfg4.win 2).blk t).view.read (Elt Ideal) (mm128 (V c main_v36) (V c main_v37)) := by
  show (cfg4.win 2).cut (grid4.coords t) ((dat4 V c).after 2 t) = _
  rw [after4_2]
  unfold out4_2
  rw [View.canon_unit_zero zeroOffsets]
  simp only [View.ld_unit_zero (S := S4000x128) zeroOffsets, View.ld_unit_zero (S := S128x128) zeroOffsets]
  obtain ⟨e0, e1, e2, e3, e4, e5⟩ := blockIndex4 t
  funext y
  obtain ⟨p, q, rfl⟩ : ∃ (p : Fin 4000) (q : Fin 128), y = ix2 p q := ⟨y 0, y 1, eq_ix2 y⟩
  show k4_pay1 (F := Ideal) (iblk4 V c 0 t) (iblk4 V c 1 t) (ix2 p q) = mm128 (V c main_v36) (V c main_v37) (((cfg4.win 2).blk t).view.emb (ix2 p q))
  refine (congrFun (k4_pay1_eq (iblk4 V c 0 t) (iblk4 V c 1 t)) (ix2 p q)).trans <| blockProduct128_eq_mm128 (V c main_v36) (V c main_v37) (iblk4 V c 0 t) (iblk4 V c 1 t) _ p q (fun k => ?_) (fun k => ?_)
  · show V c main_v36 (((cfg4.win 0).blk t).view.emb (ix2 p k)) = V c main_v36 _
    congr 1
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * k.val = k.val; omega
  · show V c main_v37 (((cfg4.win 1).blk t).view.emb (ix2 k q)) = V c main_v37 _
    congr 1
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- An index of the product's array is in point t's block iff each coordinate is in the block's range on its axis. -/
theorem mem_rowBlock4 (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v38).slice (win4_2.rect t)).set ↔ _
  rw [View.set_slice_whole, Rect.mem_set_unit]
  exact Iff.rfl

/-- Row r lies in the block of point r / 4000: the 25 row blocks cover the array. -/
theorem rowBlocks4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 4000 :=
    ⟨⟨(i 0).val / 4000, by rw [show cfg4.N = 25 from N_4]; omega⟩, rfl⟩
  obtain ⟨e0, e1, e2, e3, e4, e5⟩ := blockIndex4 t
  refine ⟨t, flush4_2 t, ?_⟩
  rw [mem_rowBlock4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

theorem region4 (c : Dev nD) : (dat4 V c).arrAt 2 cfg4.N = mm128 (V c main_v36) (V c main_v37) :=
  (dat4 V c).arrAt_eq_of_cover 2 (mm128 (V c main_v36) (V c main_v37)) (fun t _ => product4_flushed V c t) rowBlocks4_cover

/-! ## Region 6 -/

/-- The printed index maps over the grid: at point t the row blocks (left operand and product) have block index (t, 0), the
    matrix block index (0, 0). -/
theorem blockIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays as the region finds them. -/
theorem product6_flushed (c : Dev nD) (t : Fin cfg6.N) :
    (dat6 V c).flushed 2 t = ((cfg6.win 2).blk t).view.read (Elt Ideal) (mm40 (V c main_v54) (V c main_v55)) := by
  show (cfg6.win 2).cut (grid6.coords t) ((dat6 V c).after 2 t) = _
  rw [after6_2]
  unfold out6_2
  rw [View.canon_unit_zero zeroOffsets]
  simp only [View.ld_unit_zero (S := S4000x128) zeroOffsets, View.ld_unit_zero (S := S128x40) zeroOffsets]
  obtain ⟨e0, e1, e2, e3, e4, e5⟩ := blockIndex6 t
  funext y
  obtain ⟨p, q, rfl⟩ : ∃ (p : Fin 4000) (q : Fin 40), y = ix2 p q := ⟨y 0, y 1, eq_ix2 y⟩
  show k6_pay1 (F := Ideal) (iblk6 V c 0 t) (iblk6 V c 1 t) (ix2 p q) = mm40 (V c main_v54) (V c main_v55) (((cfg6.win 2).blk t).view.emb (ix2 p q))
  refine blockProduct40_eq_mm40 (V c main_v54) (V c main_v55) (iblk6 V c 0 t) (iblk6 V c 1 t) _ p q (fun k => ?_) (fun k => ?_)
  · show V c main_v54 (((cfg6.win 0).blk t).view.emb (ix2 p k)) = V c main_v54 _
    congr 1
    funext a; apply Fin.ext
    match a with
    | ⟨0, _⟩ => show win6_0.index t (0 : Fin 2) * 4000 + 1 * p.val = win6_2.index t (0 : Fin 2) * 4000 + 1 * p.val; omega
    | ⟨1, _⟩ => show win6_0.index t (1 : Fin 2) * 128 + 1 * k.val = k.val; omega
  · show V c main_v55 (((cfg6.win 1).blk t).view.emb (ix2 k q)) = V c main_v55 _
    congr 1
    funext a; apply Fin.ext
    match a with
    | ⟨0, _⟩ => show win6_1.index t (0 : Fin 2) * 128 + 1 * k.val = k.val; omega
    | ⟨1, _⟩ => show win6_1.index t (1 : Fin 2) * 40 + 1 * q.val = win6_2.index t (1 : Fin 2) * 40 + 1 * q.val; omega

/-- An index of the product's array is in point t's block iff each coordinate is in the block's range on its axis. -/
theorem mem_rowBlock6 (t : Fin cfg6.N) (i : S100000x40.Idx) :
    i ∈ ((cfg6.win 2).blk t).view.set ↔ ∀ a : Fin 2, win6_2.index t a * S4000x40.size a ≤ (i a).val ∧ (i a).val < win6_2.index t a * S4000x40.size a + S4000x40.size a := by
  show i ∈ ((View.whole main_v56).slice (win6_2.rect t)).set ↔ _
  rw [View.set_slice_whole, Rect.mem_set_unit]
  exact Iff.rfl

/-- Row r lies in the block of point r / 4000: the 25 row blocks cover the array. -/
theorem rowBlocks6_cover (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ : ∃ t : Fin cfg6.N, t.val = (i 0).val / 4000 :=
    ⟨⟨(i 0).val / 4000, by rw [show cfg6.N = 25 from N_6]; omega⟩, rfl⟩
  obtain ⟨e0, e1, e2, e3, e4, e5⟩ := blockIndex6 t
  refine ⟨t, flush6_2 t, ?_⟩
  rw [mem_rowBlock6]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 40 ≤ (i 1).val ∧ (i 1).val < win6_2.index t (1 : Fin 2) * 40 + 40; omega

theorem region6 (c : Dev nD) : (dat6 V c).arrAt 2 cfg6.N = mm40 (V c main_v54) (V c main_v55) :=
  (dat6 V c).arrAt_eq_of_cover 2 (mm40 (V c main_v54) (V c main_v55)) (fun t _ => product6_flushed V c t) rowBlocks6_cover

end Cert.Gcn

end
-- ==== Proof.RegionBias.lean ====
/-
  The three bias-and-clamp stages the kernel program computes on the chip, each a grid of 25 row blocks of 4000 rows: after the region the result array holds max(a[r, c] + b[0, c], 0) at (r, c), and for the second and third layers that plus the layer's own input at (r, c).
-/
import proofs.«106134_j40956808135034_1_alg».proof.Proof.Gen.KernelIdeal.Frame
import proofs.«106134_j40956808135034_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn

open Cert.KernelIdeal Cert.KernelIdeal.Gen Idealize.ShloMosaic Idealize.ShloMosaic.TcCoe Idealize.ShloMosaic.ValueIdx
open Idealize.ShloMosaic.Pipeline (Dat)

-- the TensorCore's buffer contents when the region is entered, a parameter
variable (V : (c : Dev nD) → (b : Ref sig .tc) → Buf (Elt Ideal) ((c : Thread nD τ).loc b))

/-! ## The payloads at an index -/

/-- Both offsets of a whole-block access are zero. -/
private theorem zeroOffsets : (![0, 0] : Fin 2 → Nat) = fun _ => 0 := funext fun a => by fin_cases a <;> rfl

/-- The bias-and-clamp payload at (p, q): the row block's entry plus the bias row's entry at q, clamped below at zero. -/
theorem biasClamp_apply (b : Vec Ideal S1x128 .f32) (a : Vec Ideal S4000x128 .f32) (p : Fin 4000) (q : Fin 128) :
    k1_pay1 (F := Ideal) b a (ix2 p q) = max (a (ix2 p q) + b (ix2 (0 : Fin 1) q)) 0 := by
  unfold k1_pay1
  simp only [shapeCast_self]
  rw [maximumf_apply, addf_apply, broadcast_apply, broadcastTo_1b_ab_apply]
  show max (a (ix2 p q) + b (ix2 (0 : Fin 1) q)) (Ideal.ofBits .f32 0x00000000#32) = _
  rw [Ideal.ofBits_zero_f32]

/-- The same with the residual block's entry added after the clamp (second layer). -/
theorem biasClampRes3_apply (b : Vec Ideal S1x128 .f32) (a r : Vec Ideal S4000x128 .f32) (p : Fin 4000) (q : Fin 128) :
    k3_pay1 (F := Ideal) b a r (ix2 p q) = max (a (ix2 p q) + b (ix2 (0 : Fin 1) q)) 0 + r (ix2 p q) := by
  unfold k3_pay1
  simp only [shapeCast_self]
  rw [addf_apply, maximumf_apply, addf_apply, broadcast_apply, broadcastTo_1b_ab_apply]
  show max (a (ix2 p q) + b (ix2 (0 : Fin 1) q)) (Ideal.ofBits .f32 0x00000000#32) + r (ix2 p q) = _
  rw [Ideal.ofBits_zero_f32]

/-- The same for the third layer. -/
theorem biasClampRes5_apply (b : Vec Ideal S1x128 .f32) (a r : Vec Ideal S4000x128 .f32) (p : Fin 4000) (q : Fin 128) :
    k5_pay1 (F := Ideal) b a r (ix2 p q) = max (a (ix2 p q) + b (ix2 (0 : Fin 1) q)) 0 + r (ix2 p q) := by
  unfold k5_pay1
  simp only [shapeCast_self]
  rw [addf_apply, maximumf_apply, addf_apply, broadcast_apply, broadcastTo_1b_ab_apply]
  show max (a (ix2 p q) + b (ix2 (0 : Fin 1) q)) (Ideal.ofBits .f32 0x00000000#32) + r (ix2 p q) = _
  rw [Ideal.ofBits_zero_f32]

/-! ## The index maps, decided over the 25 points -/

theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## First layer: one point's block of the result -/

/-- When the row block holds the array's entries at the places `e` names, the bias block is the bias row, and `e` keeps
    the column, the payload at a block index is the whole-array function at the place `e` names. -/
theorem biasClamp_block (A : S100000x128.Idx → EReal) (B : S1x128.Idx → EReal)
    (a : Vec Ideal S4000x128 .f32) (b : Vec Ideal S1x128 .f32) (e : S4000x128.Idx → S100000x128.Idx)
    (ha : ∀ y, a y = A (e y)) (hb : b = B) (he : ∀ y, (e y 1).val = (y 1).val) (y : S4000x128.Idx) :
    k1_pay1 (F := Ideal) b a y = biasRelu A B (e y) := by
  obtain ⟨p, q, rfl⟩ : ∃ (p : Fin 4000) (q : Fin 128), y = ix2 p q := ⟨y 0, y 1, eq_ix2 y⟩
  rw [biasClamp_apply, ha, hb]
  unfold biasRelu
  have hq : (e (ix2 p q) 1 : Fin 128) = q := Fin.ext (he (ix2 p q))
  rw [hq]

/-- What point `t` writes back is block `t` of the bias-and-clamp of the two arrays as the region found them. -/
theorem flushed1_eq (c : Dev nD) (t : Fin cfg1.N) :
    (dat1 V c).flushed 2 t = ((cfg1.win 2).blk t).view.read (Elt Ideal) (biasRelu (V c main_v15) (V c main_v16)) := by
  show (cfg1.win 2).cut (grid1.coords t) ((dat1 V c).after 2 t) = _
  rw [after1_2]
  unfold out1_2
  rw [View.canon_unit_zero zeroOffsets]
  simp only [View.ld_unit_zero (S := S4000x128) zeroOffsets, View.ld_unit_zero (S := S1x128) zeroOffsets]
  obtain ⟨e00, e01, e10, e11, e20, e21⟩ := blockIndex1 t
  funext y
  refine biasClamp_block (V c main_v15) (V c main_v16) (iblk1 V c 0 t) (iblk1 V c 1 t)
    (fun y => ((cfg1.win 2).blk t).view.emb y) ?_ ?_ ?_ y
  · intro y
    show V c main_v15 (((cfg1.win 0).blk t).view.emb y) = V c main_v15 (((cfg1.win 2).blk t).view.emb y)
    refine congrArg _ (funext fun a => Fin.ext ?_)
    match a with
    | ⟨0, _⟩ => show win1_0.index t (0 : Fin 2) * 4000 + 1 * (y 0).val = win1_2.index t (0 : Fin 2) * 4000 + 1 * (y 0).val; omega
    | ⟨1, _⟩ => show win1_0.index t (1 : Fin 2) * 128 + 1 * (y 1).val = win1_2.index t (1 : Fin 2) * 128 + 1 * (y 1).val; omega
  · funext z
    show V c main_v16 (((cfg1.win 1).blk t).view.emb z) = V c main_v16 z
    refine congrArg _ (funext fun a => Fin.ext ?_)
    match a with
    | ⟨0, _⟩ => show win1_1.index t (0 : Fin 2) * 1 + 1 * (z 0).val = (z 0).val; omega
    | ⟨1, _⟩ => show win1_1.index t (1 : Fin 2) * 128 + 1 * (z 1).val = (z 1).val; omega
  · intro y
    show win1_2.index t (1 : Fin 2) * 128 + 1 * (y 1).val = (y 1).val
    omega

/-- An index of the result array is in point `t`'s block iff each coordinate is in the block's range on its axis. -/
theorem mem_block1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v17).slice (win1_2.rect t)).set ↔ _
  rw [View.set_slice_whole, Rect.mem_set_unit]
  exact Iff.rfl

/-- Row r lies in the block of point r / 4000: the 25 blocks of 4000 rows fill the 100000 rows. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e00, e01, e10, e11, e20, e21⟩ := blockIndex1 t
  have ht : t.val = (i 0).val / 4000 := rfl
  refine ⟨t, flush1_2 t, ?_⟩
  rw [mem_block1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

theorem region1 (c : Dev nD) : (dat1 V c).arrAt 2 cfg1.N = biasRelu (V c main_v15) (V c main_v16) :=
  (dat1 V c).arrAt_eq_of_cover 2 (biasRelu (V c main_v15) (V c main_v16)) (fun t _ => flushed1_eq V c t) covered1

/-! ## The residual form at a block index, for either of the two layers' payloads -/

/-- For a payload that reads at (p, q) as the clamp of row entry plus bias entry, plus the residual entry: when the row
    and residual blocks hold the arrays' entries at the places `e` names, the bias block is the bias row, and `e` keeps
    the column, the payload at a block index is the whole-array function at the place `e` names. -/
theorem biasClampRes_block
    (pay : Vec Ideal S1x128 .f32 → Vec Ideal S4000x128 .f32 → Vec Ideal S4000x128 .f32 → Vec Ideal S4000x128 .f32)
    (hpay : ∀ (b : Vec Ideal S1x128 .f32) (a r : Vec Ideal S4000x128 .f32) (p : Fin 4000) (q : Fin 128),
      pay b a r (ix2 p q) = max (a (ix2 p q) + b (ix2 (0 : Fin 1) q)) 0 + r (ix2 p q))
    (A : S100000x128.Idx → EReal) (B : S1x128.Idx → EReal) (R : S100000x128.Idx → EReal)
    (a : Vec Ideal S4000x128 .f32) (b : Vec Ideal S1x128 .f32) (r : Vec Ideal S4000x128 .f32)
    (e : S4000x128.Idx → S100000x128.Idx)
    (ha : ∀ y, a y = A (e y)) (hb : b = B) (hr : ∀ y, r y = R (e y)) (he : ∀ y, (e y 1).val = (y 1).val)
    (y : S4000x128.Idx) :
    pay b a r y = biasReluRes A B R (e y) := by
  obtain ⟨p, q, rfl⟩ : ∃ (p : Fin 4000) (q : Fin 128), y = ix2 p q := ⟨y 0, y 1, eq_ix2 y⟩
  rw [hpay, ha, hr, hb]
  unfold biasReluRes
  have hq : (e (ix2 p q) 1 : Fin 128) = q := Fin.ext (he (ix2 p q))
  rw [hq]

/-! ## Second layer: one point's block of the result -/

theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the bias-and-clamp plus the layer's input, of the three arrays as the
    region found them. -/
theorem flushed3_eq (c : Dev nD) (t : Fin cfg3.N) :
    (dat3 V c).flushed 3 t = ((cfg3.win 3).blk t).view.read (Elt Ideal) (biasReluRes (V c main_v33) (V c main_v34) (V c main_v17)) := by
  show (cfg3.win 3).cut (grid3.coords t) ((dat3 V c).after 3 t) = _
  rw [after3_3]
  unfold out3_3
  rw [View.canon_unit_zero zeroOffsets]
  simp only [View.ld_unit_zero (S := S4000x128) zeroOffsets, View.ld_unit_zero (S := S1x128) zeroOffsets]
  obtain ⟨e00, e01, e10, e11, e20, e21, e30, e31⟩ := blockIndex3 t
  funext y
  refine biasClampRes_block (k3_pay1 (F := Ideal)) biasClampRes3_apply (V c main_v33) (V c main_v34) (V c main_v17)
    (iblk3 V c 0 t) (iblk3 V c 1 t) (iblk3 V c 2 t) (fun y => ((cfg3.win 3).blk t).view.emb y) ?_ ?_ ?_ ?_ y
  · intro y
    show V c main_v33 (((cfg3.win 0).blk t).view.emb y) = V c main_v33 (((cfg3.win 3).blk t).view.emb y)
    refine congrArg _ (funext fun a => Fin.ext ?_)
    match a with
    | ⟨0, _⟩ => show win3_0.index t (0 : Fin 2) * 4000 + 1 * (y 0).val = win3_3.index t (0 : Fin 2) * 4000 + 1 * (y 0).val; omega
    | ⟨1, _⟩ => show win3_0.index t (1 : Fin 2) * 128 + 1 * (y 1).val = win3_3.index t (1 : Fin 2) * 128 + 1 * (y 1).val; omega
  · funext z
    show V c main_v34 (((cfg3.win 1).blk t).view.emb z) = V c main_v34 z
    refine congrArg _ (funext fun a => Fin.ext ?_)
    match a with
    | ⟨0, _⟩ => show win3_1.index t (0 : Fin 2) * 1 + 1 * (z 0).val = (z 0).val; omega
    | ⟨1, _⟩ => show win3_1.index t (1 : Fin 2) * 128 + 1 * (z 1).val = (z 1).val; omega
  · intro y
    show V c main_v17 (((cfg3.win 2).blk t).view.emb y) = V c main_v17 (((cfg3.win 3).blk t).view.emb y)
    refine congrArg _ (funext fun a => Fin.ext ?_)
    match a with
    | ⟨0, _⟩ => show win3_2.index t (0 : Fin 2) * 4000 + 1 * (y 0).val = win3_3.index t (0 : Fin 2) * 4000 + 1 * (y 0).val; omega
    | ⟨1, _⟩ => show win3_2.index t (1 : Fin 2) * 128 + 1 * (y 1).val = win3_3.index t (1 : Fin 2) * 128 + 1 * (y 1).val; omega
  · intro y
    show win3_3.index t (1 : Fin 2) * 128 + 1 * (y 1).val = (y 1).val
    omega

/-- An index of the result array is in point `t`'s block iff each coordinate is in the block's range on its axis. -/
theorem mem_block3 (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v35).slice (win3_3.rect t)).set ↔ _
  rw [View.set_slice_whole, Rect.mem_set_unit]
  exact Iff.rfl

/-- Row r lies in the block of point r / 4000: the 25 blocks of 4000 rows fill the 100000 rows. -/
theorem covered3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 25 := N_3
  let t : Fin cfg3.N := ⟨(i 0).val / 4000, by rw [hN]; omega⟩
  obtain ⟨e00, e01, e10, e11, e20, e21, e30, e31⟩ := blockIndex3 t
  have ht : t.val = (i 0).val / 4000 := rfl
  refine ⟨t, flush3_3 t, ?_⟩
  rw [mem_block3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

theorem region3 (c : Dev nD) : (dat3 V c).arrAt 3 cfg3.N = biasReluRes (V c main_v33) (V c main_v34) (V c main_v17) :=
  (dat3 V c).arrAt_eq_of_cover 3 (biasReluRes (V c main_v33) (V c main_v34) (V c main_v17)) (fun t _ => flushed3_eq V c t) covered3

/-! ## Third layer: one point's block of the result -/

theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the bias-and-clamp plus the layer's input, of the three arrays as the
    region found them. -/
theorem flushed5_eq (c : Dev nD) (t : Fin cfg5.N) :
    (dat5 V c).flushed 3 t = ((cfg5.win 3).blk t).view.read (Elt Ideal) (biasReluRes (V c main_v51) (V c main_v52) (V c main_v35)) := by
  show (cfg5.win 3).cut (grid5.coords t) ((dat5 V c).after 3 t) = _
  rw [after5_3]
  unfold out5_3
  rw [View.canon_unit_zero zeroOffsets]
  simp only [View.ld_unit_zero (S := S4000x128) zeroOffsets, View.ld_unit_zero (S := S1x128) zeroOffsets]
  obtain ⟨e00, e01, e10, e11, e20, e21, e30, e31⟩ := blockIndex5 t
  funext y
  refine biasClampRes_block (k5_pay1 (F := Ideal)) biasClampRes5_apply (V c main_v51) (V c main_v52) (V c main_v35)
    (iblk5 V c 0 t) (iblk5 V c 1 t) (iblk5 V c 2 t) (fun y => ((cfg5.win 3).blk t).view.emb y) ?_ ?_ ?_ ?_ y
  · intro y
    show V c main_v51 (((cfg5.win 0).blk t).view.emb y) = V c main_v51 (((cfg5.win 3).blk t).view.emb y)
    refine congrArg _ (funext fun a => Fin.ext ?_)
    match a with
    | ⟨0, _⟩ => show win5_0.index t (0 : Fin 2) * 4000 + 1 * (y 0).val = win5_3.index t (0 : Fin 2) * 4000 + 1 * (y 0).val; omega
    | ⟨1, _⟩ => show win5_0.index t (1 : Fin 2) * 128 + 1 * (y 1).val = win5_3.index t (1 : Fin 2) * 128 + 1 * (y 1).val; omega
  · funext z
    show V c main_v52 (((cfg5.win 1).blk t).view.emb z) = V c main_v52 z
    refine congrArg _ (funext fun a => Fin.ext ?_)
    match a with
    | ⟨0, _⟩ => show win5_1.index t (0 : Fin 2) * 1 + 1 * (z 0).val = (z 0).val; omega
    | ⟨1, _⟩ => show win5_1.index t (1 : Fin 2) * 128 + 1 * (z 1).val = (z 1).val; omega
  · intro y
    show V c main_v35 (((cfg5.win 2).blk t).view.emb y) = V c main_v35 (((cfg5.win 3).blk t).view.emb y)
    refine congrArg _ (funext fun a => Fin.ext ?_)
    match a with
    | ⟨0, _⟩ => show win5_2.index t (0 : Fin 2) * 4000 + 1 * (y 0).val = win5_3.index t (0 : Fin 2) * 4000 + 1 * (y 0).val; omega
    | ⟨1, _⟩ => show win5_2.index t (1 : Fin 2) * 128 + 1 * (y 1).val = win5_3.index t (1 : Fin 2) * 128 + 1 * (y 1).val; omega
  · intro y
    show win5_3.index t (1 : Fin 2) * 128 + 1 * (y 1).val = (y 1).val
    omega

/-- An index of the result array is in point `t`'s block iff each coordinate is in the block's range on its axis. -/
theorem mem_block5 (t : Fin cfg5.N) (i : S100000x128.Idx) :
    i ∈ ((cfg5.win 3).blk t).view.set ↔ ∀ a : Fin 2, win5_3.index t a * S4000x128.size a ≤ (i a).val ∧ (i a).val < win5_3.index t a * S4000x128.size a + S4000x128.size a := by
  show i ∈ ((View.whole main_v53).slice (win5_3.rect t)).set ↔ _
  rw [View.set_slice_whole, Rect.mem_set_unit]
  exact Iff.rfl

/-- Row r lies in the block of point r / 4000: the 25 blocks of 4000 rows fill the 100000 rows. -/
theorem covered5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 25 := N_5
  let t : Fin cfg5.N := ⟨(i 0).val / 4000, by rw [hN]; omega⟩
  obtain ⟨e00, e01, e10, e11, e20, e21, e30, e31⟩ := blockIndex5 t
  have ht : t.val = (i 0).val / 4000 := rfl
  refine ⟨t, flush5_3 t, ?_⟩
  rw [mem_block5]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 128 ≤ (i 1).val ∧ (i 1).val < win5_3.index t (1 : Fin 2) * 128 + 128; omega

theorem region5 (c : Dev nD) : (dat5 V c).arrAt 3 cfg5.N = biasReluRes (V c main_v51) (V c main_v52) (V c main_v35) :=
  (dat5 V c).arrAt_eq_of_cover 3 (biasReluRes (V c main_v51) (V c main_v52) (V c main_v35)) (fun t _ => flushed5_eq V c t) covered5

end Cert.Gcn

end
-- ==== Proof.RegionSoftmax.lean ====
/-
  The last stage the kernel program computes on the chip, a grid of 25 row blocks of 4000 rows: the bias row is added and each row is normalised by the logarithm of its softmax, shifted by the row's maximum.
-/
import proofs.«106134_j40956808135034_1_alg».proof.Proof.Gen.KernelIdeal.Frame
import proofs.«106134_j40956808135034_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn

open Cert.KernelIdeal Cert.KernelIdeal.Gen Idealize.ShloMosaic Idealize.ShloMosaic.TcCoe Idealize.ShloMosaic.ValueIdx
open Idealize.ShloMosaic.Pipeline (Dat)

-- the TensorCore's buffer contents when the region is entered, a parameter
variable (V : (c : Dev nD) → (b : Ref sig .tc) → Buf (Elt Ideal) ((c : Thread nD τ).loc b))

/-! ## Two layout readings a row-wise reduction with a kept unit column needs -/

/-- A vector of `a` entries laid out as a column `[a, 1]` reads, at `(p, u)`, the vector at `p`: the two row-major
    positions are `p` and `p · 1 + 0`. -/
private theorem columnCast_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, c)`, the column's entry of row `p`. -/
private theorem columnBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's payload, operation by operation, at row `p` and column `q` -/

/-- The accumulator word of the maximum is minus infinity. -/
private theorem negInfWord : Ideal.ofBits .f32 0xFF800000#32 = (⊥ : EReal) := by
  simp [Ideal.ofBits, Ideal.ieee]

/-- The bias add: the block's entry plus the bias row's entry of the same column. -/
private theorem biasAdd_apply (b : FVec Ideal S1x40 .f32) (a : FVec Ideal S4000x40 .f32)
    (h1 h2 : S1x40.ShapeCasts S1x40) (hb : S1x40.Broadcasts S4000x40) (h4 : S4000x40.ShapeCasts S4000x40)
    (p : Fin 4000) (r : Fin 40) :
    addf (shapeCast S4000x40 a h4) (broadcastTo S4000x40 (shapeCast S1x40 (shapeCast S1x40 b h1) h2) hb) (ix2 p r)
      = a (ix2 p r) + b (ix2 0 r) := by
  rw [addf_apply, shapeCast_self, shapeCast_self, shapeCast_self]
  exact congrArg (a (ix2 p r) + ·) (broadcastTo_1b_ab_apply b hb p r)

/-- The source index of a row reduction: the row `p` with column `r` inserted. -/
private theorem rowLift_eq (h : S4000x40.Reduces [1] S4000) (p : Fin 4000) (r : Fin 40) :
    h.lift (ix1 p) r = ix2 p r :=
  funext fun c => Fin.ext (by match c with | ⟨0, _⟩ => rfl | ⟨1, _⟩ => rfl)

/-- The maximum along a row: the fold of `max` from minus infinity over the row's forty entries. -/
private theorem rowMaxReduce_apply (x : FVec Ideal S4000x40 .f32) (h : S4000x40.Reduces [1] S4000) (hφ : FKind.Formats .f32)
    (hacc : (0xFF800000#32 : BitVec 32) = 0xFF800000#32) (p : Fin 4000) :
    multiReduction (F := Ideal) .maximumf [1] S4000 x 0xFF800000#32 h hφ hacc (ix1 p)
      = rowMax40 fun r => x (ix2 p r) := by
  refine (Ideal.multiReduction_maximumf_single x 0xFF800000#32 h hφ hacc (ix1 p)).trans ?_
  show (Finset.univ : Finset (Fin 40)).fold max (Ideal.ofBits .f32 0xFF800000#32) (fun r => x (h.lift (ix1 p) r)) = _
  rw [negInfWord]
  unfold rowMax40
  exact congrArg (fun f : Fin 40 → EReal => (Finset.univ : Finset (Fin 40)).fold max ⊥ f)
    (funext fun r => congrArg x (rowLift_eq h p r))

/-- The sum along a row: the plain sum of the row's forty entries. -/
private theorem rowSumReduce_apply (x : FVec Ideal S4000x40 .f32) (h : S4000x40.Reduces [1] S4000) (hφ : FKind.Formats .f32)
    (hacc : (0x00000000#32 : BitVec 32) = 0x00000000#32) (p : Fin 4000) :
    multiReduction (F := Ideal) .add [1] S4000 x 0x00000000#32 h hφ hacc (ix1 p)
      = ∑ r : Fin 40, x (ix2 p r) := by
  refine (Ideal.multiReduction_add_single x 0x00000000#32 h hφ hacc (ix1 p)).trans ?_
  show ∑ r : Fin 40, x (h.lift (ix1 p) r) = _
  exact Finset.sum_congr rfl fun r _ => congrArg x (rowLift_eq h p r)

/-- A row-wise quantity kept as a unit column and spread back over the row reads, at `(p, q)`, the quantity of row `p`. -/
private theorem keptColumn_apply (y : FVec Ideal S4000 .f32) (hc : S4000.ShapeCasts S4000x1) (hb : S4000x1.Broadcasts S4000x40)
    (p : Fin 4000) (q : Fin 40) :
    broadcastTo S4000x40 (shapeCast S4000x1 y hc) hb (ix2 p q) = y (ix1 p) :=
  (columnBroadcast_apply _ hb p q).trans (columnCast_apply y hc p 0)

/-- The same with the logarithm taken on the column before it is spread. -/
private theorem keptLogColumn_apply (y : FVec Ideal S4000 .f32) (hc : S4000.ShapeCasts S4000x1) (hb : S4000x1.Broadcasts S4000x40)
    (p : Fin 4000) (q : Fin 40) :
    broadcastTo S4000x40 (log (shapeCast S4000x1 y hc)) hb (ix2 p q) = Ideal.log (y (ix1 p)) :=
  (columnBroadcast_apply _ hb p q).trans (congrArg Ideal.log (columnCast_apply y hc p 0))

/-- The shift by the row maximum: entry `(p, c)` less the largest entry of row `p`. -/
private theorem rowShift_apply (x : FVec Ideal S4000x40 .f32) (h : S4000x40.Reduces [1] S4000) (hφ : FKind.Formats .f32)
    (hacc : (0xFF800000#32 : BitVec 32) = 0xFF800000#32) (hc : S4000.ShapeCasts S4000x1) (hb : S4000x1.Broadcasts S4000x40)
    (p : Fin 4000) (c : Fin 40) :
    subf x (broadcastTo S4000x40 (shapeCast S4000x1
        (multiReduction (F := Ideal) .maximumf [1] S4000 x 0xFF800000#32 h hφ hacc) hc) hb) (ix2 p c)
      = x (ix2 p c) - rowMax40 fun r => x (ix2 p r) :=
  (subf_apply _ _ _).trans (congrArg (x (ix2 p c) - ·)
    ((keptColumn_apply _ hc hb p c).trans (rowMaxReduce_apply x h hφ hacc p)))

/-- The logarithm of the row's sum of exponentials, subtracted: entry `(p, q)` of `z` less `log (∑ r, exp z[p, r])`. -/
private theorem rowLogSumExp_apply (z : FVec Ideal S4000x40 .f32) (h : S4000x40.Reduces [1] S4000) (hφ : FKind.Formats .f32)
    (hacc : (0x00000000#32 : BitVec 32) = 0x00000000#32) (hc : S4000.ShapeCasts S4000x1) (hb : S4000x1.Broadcasts S4000x40)
    (p : Fin 4000) (q : Fin 40) :
    subf z (broadcastTo S4000x40 (log (shapeCast S4000x1
        (multiReduction (F := Ideal) .add [1] S4000 (exp z) 0x00000000#32 h hφ hacc) hc)) hb) (ix2 p q)
      = z (ix2 p q) - Ideal.log (∑ r : Fin 40, Ideal.exp (z (ix2 p r))) :=
  (subf_apply _ _ _).trans (congrArg (z (ix2 p q) - ·)
    ((keptLogColumn_apply _ hc hb p q).trans (congrArg Ideal.log (rowSumReduce_apply (exp z) h hφ hacc p))))

/-- The two together: a block `x` shifted by its row maxima and normalised by the logarithm of the shifted row's sum of
    exponentials. -/
private theorem rowLogSoftmax_apply (x : FVec Ideal S4000x40 .f32) (h : S4000x40.Reduces [1] S4000) (hφ : FKind.Formats .f32)
    (hm : (0xFF800000#32 : BitVec 32) = 0xFF800000#32) (hs : (0x00000000#32 : BitVec 32) = 0x00000000#32)
    (hc : S4000.ShapeCasts S4000x1) (hb : S4000x1.Broadcasts S4000x40) (p : Fin 4000) (q : Fin 40) :
    subf
        (subf x (broadcastTo S4000x40 (shapeCast S4000x1
          (multiReduction (F := Ideal) .maximumf [1] S4000 x 0xFF800000#32 h hφ hm) hc) hb))
        (broadcastTo S4000x40 (log (shapeCast S4000x1
          (multiReduction (F := Ideal) .add [1] S4000
            (exp (subf x (broadcastTo S4000x40 (shapeCast S4000x1
              (multiReduction (F := Ideal) .maximumf [1] S4000 x 0xFF800000#32 h hφ hm) hc) hb)))
            0x00000000#32 h hφ hs) hc)) hb) (ix2 p q)
      = (x (ix2 p q) - rowMax40 fun r => x (ix2 p r))
        - Ideal.log (∑ r' : Fin 40, Ideal.exp (x (ix2 p r') - rowMax40 fun r => x (ix2 p r))) :=
  (rowLogSumExp_apply _ h hφ hs hc hb p q).trans
    (congrArg₂ (· - ·) (rowShift_apply x h hφ hm hc hb p q)
      (congrArg Ideal.log (Finset.sum_congr rfl fun r _ => congrArg Ideal.exp (rowShift_apply x h hφ hm hc hb p r))))

/-- THE PAYLOAD AT AN INDEX: with `s r` the block's entry of row `p` plus the bias at column `r` and `M` the
    largest `s r`, entry `(p, q)` is `(s q - M) - log (∑ r, exp (s r - M))`. -/
private theorem logSoftmaxPayload_apply (b : FVec Ideal S1x40 .f32) (a : FVec Ideal S4000x40 .f32) (p : Fin 4000) (q : Fin 40) :
    k7_pay1 (F := Ideal) b a (ix2 p q)
      = ((a (ix2 p q) + b (ix2 0 q)) - rowMax40 fun r => a (ix2 p r) + b (ix2 0 r))
        - Ideal.log (∑ r' : Fin 40, Ideal.exp
            ((a (ix2 p r') + b (ix2 0 r')) - rowMax40 fun r => a (ix2 p r) + b (ix2 0 r))) := by
  unfold k7_pay1
  refine (rowLogSoftmax_apply _ reduces_S4000x40_S4000 (.inl rfl) rfl rfl shapeCasts_S4000_S4000x1
    broadcasts_S4000x1_S4000x40 p q).trans ?_
  exact congrArg (fun s : Fin 40 → EReal =>
      (s q - rowMax40 s) - Ideal.log (∑ r' : Fin 40, Ideal.exp (s r' - rowMax40 s)))
    (funext fun c => biasAdd_apply b a _ _ _ _ p c)

/-- One point of one block: if the block's row `p` is the array's row `P` and the bias block is the bias row, the
    payload at `(p, q)` is the bias add and row-wise log-softmax of the arrays at `(P, q)`. -/
private theorem blockPoint_eq7 (A : S100000x40.Idx → EReal) (B : S1x40.Idx → EReal)
    (a : FVec Ideal S4000x40 .f32) (b : FVec Ideal S1x40 .f32) (P : Fin 100000) (p : Fin 4000) (q : Fin 40)
    (ha : ∀ r : Fin 40, a (ix2 p r) = A (ix2 P r)) (hb : ∀ r : Fin 40, b (ix2 0 r) = B (ix2 0 r)) :
    k7_pay1 (F := Ideal) b a (ix2 p q) = biasLogSoftmax A B (ix2 P q) := by
  refine (logSoftmaxPayload_apply b a p q).trans ?_
  have hs : (fun r : Fin 40 => a (ix2 p r) + b (ix2 0 r)) = fun r => A (ix2 P r) + B (ix2 0 r) :=
    funext fun r => by rw [ha r, hb r]
  show (fun s : Fin 40 → EReal => (s q - rowMax40 s) - Ideal.log (∑ r' : Fin 40, Ideal.exp (s r' - rowMax40 s)))
      (fun r => a (ix2 p r) + b (ix2 0 r))
    = (fun s : Fin 40 → EReal => (s q - rowMax40 s) - Ideal.log (∑ r' : Fin 40, Ideal.exp (s r' - rowMax40 s)))
      (fun r => A (ix2 P r) + B (ix2 0 r))
  rw [hs]

/-! ## From the blocks to the array -/

/-- The origin offset of a whole-block access. -/
private theorem originZero7 : (![0, 0] : Fin 2 → Nat) = fun _ => 0 := funext fun a => by fin_cases a <;> rfl

/-- The printed index maps, decided over the grid: at point `t` the aggregated array's block and the output's block are
    block `(t, 0)`, the bias row's is its one block `(0, 0)`; and there are 25 points. -/
private theorem blockIndex_facts7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0
    ∧ t.val < 25 :=
  (by decide +kernel : ∀ t : Fin grid7.N, _)

/-- Every one of the 25 row blocks is SOME point's output block. -/
private theorem blockIndex_onto7 : ∀ k : Fin 25, ∃ t : Fin cfg7.N, win7_2.index t = ![k.val, 0] :=
  (by decide +kernel : ∀ k : Fin 25, ∃ t : Fin grid7.N, win7_2.index t = ![k.val, 0])

/-- The aggregated array's block at point `t`, read at row `p` and column `r`, is the array at row `4000 · t + p`. -/
private theorem aggBlock_apply7 (c : Dev nD) (t : Fin cfg7.N) (P : Fin 100000) (p : Fin 4000) (r : Fin 40)
    (hP : P.val = t.val * 4000 + p.val) :
    iblk7 V c 0 t (ix2 p r) = V c main_v69 (ix2 P r) := by
  obtain ⟨e0, e1, -, -, -, -, -⟩ := blockIndex_facts7 t
  show V c main_v69 (((cfg7.win 0).blk t).view.emb (ix2 p r)) = V c main_v69 (ix2 P r)
  refine congrArg (V c main_v69) (funext fun a => Fin.ext ?_)
  match a with
  | ⟨0, _⟩ => show win7_0.index t (0 : Fin 2) * 4000 + 1 * p.val = P.val; omega
  | ⟨1, _⟩ => show win7_0.index t (1 : Fin 2) * 40 + 1 * r.val = r.val; omega

/-- The bias row's block at every point is the whole row. -/
private theorem biasBlock_apply7 (c : Dev nD) (t : Fin cfg7.N) (r : Fin 40) :
    iblk7 V c 1 t (ix2 0 r) = V c main_v70 (ix2 0 r) := by
  obtain ⟨-, -, e2, e3, -, -, -⟩ := blockIndex_facts7 t
  show V c main_v70 (((cfg7.win 1).blk t).view.emb (ix2 0 r)) = V c main_v70 (ix2 0 r)
  refine congrArg (V c main_v70) (funext fun a => Fin.ext ?_)
  match a with
  | ⟨0, _⟩ => show win7_1.index t (0 : Fin 2) * 1 + 1 * 0 = 0; omega
  | ⟨1, _⟩ => show win7_1.index t (1 : Fin 2) * 40 + 1 * r.val = r.val; omega

/-- The output's block at point `t` sits at rows `4000 · t + p`. -/
private theorem outBlock_emb7 (t : Fin cfg7.N) (P : Fin 100000) (p : Fin 4000) (q : Fin 40)
    (hP : P.val = t.val * 4000 + p.val) :
    ((cfg7.win 2).blk t).view.emb (ix2 p q) = ix2 P q := by
  obtain ⟨-, -, -, -, e4, e5, -⟩ := blockIndex_facts7 t
  refine funext fun a => Fin.ext ?_
  match a with
  | ⟨0, _⟩ => show win7_2.index t (0 : Fin 2) * 4000 + 1 * p.val = P.val; omega
  | ⟨1, _⟩ => show win7_2.index t (1 : Fin 2) * 40 + 1 * q.val = q.val; omega

private theorem flushed7_eq (c : Dev nD) (t : Fin cfg7.N) :
    (dat7 V c).flushed 2 t
      = ((cfg7.win 2).blk t).view.read (Elt Ideal) (biasLogSoftmax (V c main_v69) (V c main_v70)) := by
  show (cfg7.win 2).cut (grid7.coords t) ((dat7 V c).after 2 t) = _
  rw [after7_2]
  unfold out7_2
  rw [View.canon_unit_zero originZero7]
  simp only [View.ld_unit_zero (S := S4000x40) originZero7, View.ld_unit_zero (S := S1x40) originZero7]
  obtain ⟨-, -, -, -, -, -, ht⟩ := blockIndex_facts7 t
  funext y
  obtain ⟨p, q, rfl⟩ : ∃ (p : Fin 4000) (q : Fin 40), y = ix2 p q := ⟨y 0, y 1, eq_ix2 y⟩
  have hp : p.val < 4000 := p.isLt
  have hP : (⟨t.val * 4000 + p.val, by omega⟩ : Fin 100000).val = t.val * 4000 + p.val := rfl
  show k7_pay1 (F := Ideal) (iblk7 V c 1 t) (iblk7 V c 0 t) (ix2 p q)
    = biasLogSoftmax (V c main_v69) (V c main_v70) (((cfg7.win 2).blk t).view.emb (ix2 p q))
  rw [outBlock_emb7 t _ p q hP]
  exact blockPoint_eq7 _ _ _ _ _ p q (fun r => aggBlock_apply7 V c t _ p r hP) (fun r => biasBlock_apply7 V c t r)
/-- An index of the array is in point `t`'s block iff each coordinate is in the block's range on its axis. -/
private theorem mem_rowBlock7 (t : Fin cfg7.N) (i : S100000x40.Idx) :
    i ∈ ((cfg7.win 2).blk t).view.set ↔ ∀ a : Fin 2, win7_2.index t a * S4000x40.size a ≤ (i a).val
      ∧ (i a).val < win7_2.index t a * S4000x40.size a + S4000x40.size a := by
  show i ∈ ((View.whole main_v71).slice (win7_2.rect t)).set ↔ _
  rw [View.set_slice_whole, Rect.mem_set_unit]
  exact Iff.rfl

/-- THE ROW BLOCKS COVER THE ARRAY: row `r` lies in the block of point `r / 4000`. -/
private theorem rowBlocks_cover7 (i : S100000x40.Idx) :
    ∃ t : Fin cfg7.N, (cfg7.win 2).flush t = true ∧ i ∈ ((cfg7.win 2).blk t).view.set := by
  have hi0 : (i 0).val < 100000 := (i 0).isLt
  have hi1 : (i 1).val < 40 := (i 1).isLt
  obtain ⟨t, ht⟩ := blockIndex_onto7 ⟨(i 0).val / 4000, by omega⟩
  have q0 : win7_2.index t (0 : Fin 2) = (i 0).val / 4000 := congrFun ht 0
  have q1 : win7_2.index t (1 : Fin 2) = 0 := congrFun ht 1
  refine ⟨t, flush7_2 t, ?_⟩
  rw [mem_rowBlock7]
  intro a
  match a with
  | ⟨0, _⟩ =>
    show win7_2.index t (0 : Fin 2) * 4000 ≤ (i 0).val ∧ (i 0).val < win7_2.index t (0 : Fin 2) * 4000 + 4000
    omega
  | ⟨1, _⟩ =>
    show win7_2.index t (1 : Fin 2) * 40 ≤ (i 1).val ∧ (i 1).val < win7_2.index t (1 : Fin 2) * 40 + 40
    omega

theorem region7 (c : Dev nD) : (dat7 V c).arrAt 2 cfg7.N = biasLogSoftmax (V c main_v69) (V c main_v70) := by
  exact (dat7 V c).arrAt_eq_of_cover 2 (biasLogSoftmax (V c main_v69) (V c main_v70))
    (fun t _ => flushed7_eq V c t) rowBlocks_cover7

end Cert.Gcn

end
-- ==== Proof.RefDense.lean ====
/-
  The reference's dense stages over the extended reals, read at an index: its host product is the sum over the contracted coordinate, and its bias add and clamp is the index-level formula with the bias laid out as one row.
-/
import proofs.«106134_j40956808135034_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn

open Cert.ReferenceIdeal Idealize.ShloMosaic Idealize.ShloMosaic.TcCoe Idealize.ShloMosaic.ValueIdx

/-! ## The host product of width 128 at an index

The product's dimension record contracts the left operand's second axis against the right operand's first; the
result's row is the left operand's free axis and the result's column is the right operand's free axis. -/

/-- The left operand is read on its first axis at the result's row. -/
theorem dotR128_lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

/-- The left operand is read on its second axis at the contracted coordinate. -/
theorem dotR128_lhs_contr (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

/-- The right operand is read on its first axis at the contracted coordinate. -/
theorem dotR128_rhs_contr (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

/-- The right operand is read on its second axis at the result's column. -/
theorem dotR128_rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dotR128_eq (x : (⟨S100000x128, .f32⟩ : BufTy).Contents (Elt Ideal)) (w : (⟨S128x128, .f32⟩ : BufTy).Contents (Elt Ideal)) :
    dotR128 (F := Ideal) x w = mm128 x w := by
  funext i
  unfold dotR128 mm128
  simp only [Host.dotGeneral]
  -- the host product at an index is the sum over the record's contraction index set, which has one axis of extent 128
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  -- the left operand's index is (row of i, k)
  have el : dot_S100000x128_S128x128_S100000x128_1_0_0_1_n_n.lhsIdx i ((ValueIdx.contrEquiv1 dot_S100000x128_S128x128_S100000x128_1_0_0_1_n_n 128 rfl rfl).symm k) = ix2 (n0 := 100000) (n1 := 128) (i 0) k := funext fun a => Fin.ext (by
    match a with
    | ⟨0, _⟩ => exact dotR128_lhs_row _ _
    | ⟨1, _⟩ => exact (dotR128_lhs_contr _ _).trans hk)
  -- the right operand's index is (k, column of i)
  have er : dot_S100000x128_S128x128_S100000x128_1_0_0_1_n_n.rhsIdx i ((ValueIdx.contrEquiv1 dot_S100000x128_S128x128_S100000x128_1_0_0_1_n_n 128 rfl rfl).symm k) = ix2 (n0 := 128) (n1 := 128) k (i 1) := funext fun a => Fin.ext (by
    match a with
    | ⟨0, _⟩ => exact (dotR128_rhs_contr _ _).trans hk
    | ⟨1, _⟩ => exact dotR128_rhs_col _ _)
  rw [el, er]

/-! ## The host product of width 40 at an index

The product's dimension record contracts the left operand's second axis against the right operand's first; the
result's row is the left operand's free axis and the result's column is the right operand's free axis. -/

/-- The left operand is read on its first axis at the result's row. -/
theorem dotR40_lhs_row (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl

/-- The left operand is read on its second axis at the contracted coordinate. -/
theorem dotR40_lhs_contr (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q

/-- The right operand is read on its first axis at the contracted coordinate. -/
theorem dotR40_rhs_contr (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q

/-- The right operand is read on its second axis at the result's column. -/
theorem dotR40_rhs_col (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

theorem dotR40_eq (x : (⟨S100000x128, .f32⟩ : BufTy).Contents (Elt Ideal)) (w : (⟨S128x40, .f32⟩ : BufTy).Contents (Elt Ideal)) :
    dotR40 (F := Ideal) x w = mm40 x w := by
  funext i
  unfold dotR40 mm40
  simp only [Host.dotGeneral]
  -- the host product at an index is the sum over the record's contraction index set, which has one axis of extent 128
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  -- the left operand's index is (row of i, k)
  have el : dot_S100000x128_S128x40_S100000x40_1_0_0_1_n_n.lhsIdx i ((ValueIdx.contrEquiv1 dot_S100000x128_S128x40_S100000x40_1_0_0_1_n_n 128 rfl rfl).symm k) = ix2 (n0 := 100000) (n1 := 128) (i 0) k := funext fun a => Fin.ext (by
    match a with
    | ⟨0, _⟩ => exact dotR40_lhs_row _ _
    | ⟨1, _⟩ => exact (dotR40_lhs_contr _ _).trans hk)
  -- the right operand's index is (k, column of i)
  have er : dot_S100000x128_S128x40_S100000x40_1_0_0_1_n_n.rhsIdx i ((ValueIdx.contrEquiv1 dot_S100000x128_S128x40_S100000x40_1_0_0_1_n_n 128 rfl rfl).symm k) = ix2 (n0 := 128) (n1 := 40) k (i 1) := funext fun a => Fin.ext (by
    match a with
    | ⟨0, _⟩ => exact (dotR40_rhs_contr _ _).trans hk
    | ⟨1, _⟩ => exact dotR40_rhs_col _ _)
  rw [el, er]

/-! ## The bias add and clamp at an index

The reference lays the bias vector out as one row by a broadcast along the second axis, repeats that row 100000 times
by a broadcast whose first axis has extent one, and clamps against the scalar zero broadcast to the whole array. -/

/-- A vector of 128 entries broadcast to one row along the second axis reads, at (u, q), the vector's entry q. -/
theorem reluR_biasRow_apply {α : Type} (b : S128.Idx → α)
    (h : S128.BroadcastsInDim S1x128 (![1] : Fin 1 → Fin S1x128.rank)) (u : Fin 1) (q : Fin 128) :
    broadcastInDim S1x128 ![1] h b (ix2 (n0 := 1) (n1 := 128) u q) = b (ix1 q) :=
  broadcastInDim_apply _ h b _ _ (fun a => match a with
    | ⟨0, _⟩ => by show q.val = if (128 : Nat) = 1 then 0 else q.val; rw [if_neg (by decide)])

/-- One row broadcast to 100000 rows reads, at (p, q), the row's entry q. -/
theorem reluR_biasRows_apply {α : Type} (y : S1x128.Idx → α)
    (h : S1x128.BroadcastsInDim S100000x128 (![0, 1] : Fin 2 → Fin S100000x128.rank)) (p : Fin 100000) (q : Fin 128) :
    broadcastInDim S100000x128 ![0, 1] h y (ix2 (n0 := 100000) (n1 := 128) p q) = y (ix2 (n0 := 1) (n1 := 128) 0 q) :=
  broadcastInDim_apply _ h y _ _ (fun a => match a with
    | ⟨0, _⟩ => by show 0 = if (1 : Nat) = 1 then 0 else p.val; rw [if_pos rfl]
    | ⟨1, _⟩ => by show q.val = if (128 : Nat) = 1 then 0 else q.val; rw [if_neg (by decide)])

/-- A scalar broadcast to the whole array reads the scalar at every index. -/
theorem reluR_scalar_apply {α : Type} (c : S_.Idx → α)
    (h : S_.BroadcastsInDim S100000x128 (![] : Fin 0 → Fin S100000x128.rank)) (j : S100000x128.Idx) :
    broadcastInDim S100000x128 ![] h c j = c (fun a => a.elim0) :=
  broadcastInDim_apply _ h c j (fun a => a.elim0) (fun a => a.elim0)

/-- The bias vector recast as one row reads, at (0, q), the vector's entry q: the two row-major positions agree. -/
theorem reluR_rowK128_apply (b : (⟨S128, .f32⟩ : BufTy).Contents (Elt Ideal)) (q : Fin 128) :
    rowK128 (F := Ideal) b (ix2 (n0 := 1) (n1 := 128) 0 q) = b (ix1 q) := by
  unfold rowK128
  exact shapeCast_a_1a_apply b _ 0 q

theorem reluR_eq (a : (⟨S100000x128, .f32⟩ : BufTy).Contents (Elt Ideal)) (b : (⟨S128, .f32⟩ : BufTy).Contents (Elt Ideal)) :
    reluR (F := Ideal) a b = biasRelu a (rowK128 (F := Ideal) b) := by
  funext i
  obtain ⟨p, q, rfl⟩ : ∃ (p : Fin 100000) (q : Fin 128), i = ix2 p q := ⟨i 0, i 1, eq_ix2 i⟩
  unfold reluR biasRelu
  -- the clamp and the sum are pointwise
  rw [maximumf_apply, addf_apply]
  -- the bias, repeated over the rows, is the vector's entry at the column; the clamp's other side is zero
  rw [reluR_biasRows_apply, reluR_biasRow_apply, reluR_scalar_apply, constant_apply, Ideal.ofBits_zero_f32]
  -- the bias row of the index-level formula is the same entry
  show max (a (ix2 p q) + b (ix1 q)) 0 = max (a (ix2 p q) + rowK128 (F := Ideal) b (ix2 (n0 := 1) (n1 := 128) 0 q)) 0
  rw [reluR_rowK128_apply]

theorem reluR_res_eq (a : (⟨S100000x128, .f32⟩ : BufTy).Contents (Elt Ideal)) (b : (⟨S128, .f32⟩ : BufTy).Contents (Elt Ideal))
    (r : (⟨S100000x128, .f32⟩ : BufTy).Contents (Elt Ideal)) :
    addf (F := Ideal) (s := S100000x128) (φ := .f32) (reluR (F := Ideal) a b) r = biasReluRes a (rowK128 (F := Ideal) b) r := by
  funext i
  -- the sum is pointwise, and the first summand is the bias add and clamp read above
  rw [addf_apply, congrFun (reluR_eq a b) i]
  rfl

end Cert.Gcn

end
-- ==== Proof.RefSoftmax.lean ====
/-
  The reference's last stage over the extended reals, read at an index: the bias add followed by jax's row-wise log-softmax is the index-level formula, the row maximum a fold of max from the bottom element and the row sum a finite sum.
-/
import proofs.«106134_j40956808135034_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn

open Cert.ReferenceIdeal Idealize.ShloMosaic Idealize.ShloMosaic.TcCoe Idealize.ShloMosaic.ValueIdx

/-! ## Layout operations of the stage, read at an index -/

/-- A bias vector laid out as one row, read at (0, q), is its entry q. -/
private theorem rowK40_apply (b : (⟨S40, .f32⟩ : BufTy).Contents (Elt Ideal)) (q : Fin 40) :
    rowK40 (F := Ideal) b (ix2 (n0 := 1) (n1 := 40) 0 q) = b (ix1 q) := by
  unfold rowK40
  exact shapeCast_a_1a_apply b _ 0 q

/-- A vector of forty entries broadcast to one row and then to every row, read at (p, q), is its entry q. -/
private theorem rowBroadcast_apply {α : Type} (h1 : S40.BroadcastsInDim S1x40 (![1] : Fin 1 → Fin S1x40.rank))
    (h2 : S1x40.BroadcastsInDim S100000x40 (![0, 1] : Fin 2 → Fin S100000x40.rank)) (b : S40.Idx → α)
    (p : Fin 100000) (q : Fin 40) :
    broadcastInDim S100000x40 ![0, 1] h2 (broadcastInDim S1x40 ![1] h1 b) (ix2 p q) = b (ix1 q) := by
  rw [broadcastInDim_apply _ h2 _ (ix2 p q) (ix2 (n0 := 1) (n1 := 40) 0 q) (fun c => match c with
    | ⟨0, _⟩ => by show 0 = if (1 : Nat) = 1 then 0 else p.val; rw [if_pos rfl]
    | ⟨1, _⟩ => by show q.val = if (40 : Nat) = 1 then 0 else q.val; rw [if_neg (by decide)])]
  exact broadcastInDim_apply _ h1 b (ix2 (n0 := 1) (n1 := 40) 0 q) (ix1 q) (fun c => match c with
    | ⟨0, _⟩ => by show q.val = if (40 : Nat) = 1 then 0 else q.val; rw [if_neg (by decide)])

/-- A vector over the rows made a column, read at (p, 0), is its entry p. -/
private theorem column_apply {α : Type} (h : S100000.BroadcastsInDim S100000x1 (![0] : Fin 1 → Fin S100000x1.rank))
    (v : S100000.Idx → α) (p : Fin 100000) (u : Fin 1) :
    broadcastInDim S100000x1 ![0] h v (ix2 p u) = v (ix1 p) :=
  broadcastInDim_apply _ h v (ix2 p u) (ix1 p) (fun c => match c with
    | ⟨0, _⟩ => by show p.val = if (100000 : Nat) = 1 then 0 else p.val; rw [if_neg (by decide)])

/-- A column broadcast along every row, read at (p, q), is the column's entry p. -/
private theorem columnBroadcast_apply {α : Type} (h : S100000x1.BroadcastsInDim S100000x40 (![0, 1] : Fin 2 → Fin S100000x40.rank))
    (w : S100000x1.Idx → α) (p : Fin 100000) (q : Fin 40) :
    broadcastInDim S100000x40 ![0, 1] h w (ix2 p q) = w (ix2 (n0 := 100000) (n1 := 1) p 0) :=
  broadcastInDim_apply _ h w (ix2 p q) (ix2 (n0 := 100000) (n1 := 1) p 0) (fun c => match c with
    | ⟨0, _⟩ => by show p.val = if (100000 : Nat) = 1 then 0 else p.val; rw [if_neg (by decide)]
    | ⟨1, _⟩ => by show 0 = if (1 : Nat) = 1 then 0 else q.val; rw [if_pos rfl])

/-! ## The two row reductions -/

/-- The reduced index p with column k put back is (p, k). -/
private theorem lift_row (h : S100000x40.Reduces [1] S100000) (p : Fin 100000) (k : Fin (S100000x40.size 1)) :
    h.lift (ix1 p) k = ix2 p (⟨k.val, k.isLt⟩ : Fin 40) := by
  funext c
  apply Fin.ext
  match c with
  | ⟨0, _⟩ => rfl
  | ⟨1, _⟩ => rfl

/-- The pattern of minus infinity is the bottom element. -/
private theorem ofBits_negInf_f32 : Ideal.ofBits .f32 0xFF800000#32 = (⊥ : EReal) := by
  simp [Ideal.ofBits, Ideal.ieee]

/-- The row maximum as the reference takes it (a max-reduce along the columns from minus infinity, then a maximum against a
    broadcast minus infinity), at row p, is the fold of max from the bottom element over the row's forty entries. -/
private theorem rowMaxR_apply (h0 : S_.BroadcastsInDim S100000 (![] : Fin 0 → Fin S100000.rank))
    (hred : S100000x40.ReducesTo [1] S100000) (hu : 0 < S_.numel)
    (x : FVec Ideal S100000x40 .f32) (p : Fin 100000) :
    maximumf (broadcastInDim S100000 ![] h0 (constant (F := Ideal) S_ .f32 0xFF800000#32))
        (Host.reduce FloatOps.maximumf x (constant (F := Ideal) S_ .f32 0xFF800000#32) hred hu) (ix1 p)
      = rowMax40 fun q => x (ix2 p q) := by
  have hr : S100000x40.Reduces [1] S100000 := by decide
  rw [maximumf_apply, Host.reduce_eq_fold_single FloatOps.maximumf x _ hred hr hu]
  have hb : broadcastInDim S100000 ![] h0 (constant (F := Ideal) S_ .f32 0xFF800000#32) (ix1 p) = (⊥ : EReal) :=
    ofBits_negInf_f32
  have hc : constant (F := Ideal) S_ .f32 0xFF800000#32 (Shape.Idx.first hu) = (⊥ : EReal) := ofBits_negInf_f32
  have hf : (x ∘ hr.lift (ix1 p)) = fun k : Fin 40 => x (ix2 p k) := funext fun k => congrArg x (lift_row hr p k)
  rw [hb, hc, max_eq_right bot_le]
  exact congrArg (fun f => Finset.fold max (⊥ : EReal) f (Finset.univ : Finset (Fin 40))) hf

/-- The row sum as the reference takes it (an add-reduce along the columns from zero), at row p, is the sum of the row's
    forty entries. -/
private theorem rowSumR_apply (hred : S100000x40.ReducesTo [1] S100000) (hu : 0 < S_.numel)
    (y : FVec Ideal S100000x40 .f32) (p : Fin 100000) :
    Host.reduceAdd (F := Ideal) y (constant (F := Ideal) S_ .f32 0x00000000#32) hred hu (ix1 p)
      = ∑ q : Fin 40, y (ix2 p q) := by
  have hr : S100000x40.Reduces [1] S100000 := by decide
  simp only [Host.reduceAdd, Ideal.hostReduceAdd_def]
  rw [Ideal.hostReduceAdd_single hred hr]
  have hc : constant (F := Ideal) S_ .f32 0x00000000#32 (Shape.Idx.first hu) = (0 : EReal) := Ideal.ofBits_zero_f32
  rw [hc, zero_add]
  exact Finset.sum_congr rfl fun k _ => congrArg y (lift_row hr p k)

/-! ## The stage at an index -/

/-- The host's exponential at an index is the extended reals' exponential of the entry. -/
private theorem hostExp_apply {s : Shape} (v : FVec Ideal s .f32) (i : s.Idx) : Host.exp (F := Ideal) v i = Ideal.exp (v i) := rfl

/-- The host's logarithm at an index is the extended reals' logarithm of the entry. -/
private theorem hostLog_apply {s : Shape} (v : FVec Ideal s .f32) (i : s.Idx) : Host.log (F := Ideal) v i = Ideal.log (v i) := rfl

/-- The logarithm of the softmax of a row of forty entries, shifted by the row's maximum M, at entry q:
    (s q - M) - log (∑ r, exp (s r - M)). -/
private def logSoftmaxRow (s : Fin 40 → EReal) (q : Fin 40) : EReal :=
  (s q - rowMax40 s) - Ideal.log (∑ r : Fin 40, Ideal.exp (s r - rowMax40 s))

/-- jax's log-softmax along the rows of an array x, at (p, q), is the shifted log-softmax of row p, whatever names the
    row's entries (s r for x[p, r]). -/
private theorem logSoftmaxOps_apply (h0 : S_.BroadcastsInDim S100000 (![] : Fin 0 → Fin S100000.rank))
    (hred : S100000x40.ReducesTo [1] S100000) (hu : 0 < S_.numel)
    (hcol : S100000.BroadcastsInDim S100000x1 (![0] : Fin 1 → Fin S100000x1.rank))
    (hrows : S100000x1.BroadcastsInDim S100000x40 (![0, 1] : Fin 2 → Fin S100000x40.rank))
    (x : FVec Ideal S100000x40 .f32) (p : Fin 100000) (s : Fin 40 → EReal) (hs : ∀ r, x (ix2 p r) = s r) (q : Fin 40) :
    subf
      (subf x
        (broadcastInDim S100000x40 ![0, 1] hrows
          (broadcastInDim S100000x1 ![0] hcol
            (maximumf (broadcastInDim S100000 ![] h0 (constant (F := Ideal) S_ .f32 0xFF800000#32))
              (Host.reduce FloatOps.maximumf x (constant (F := Ideal) S_ .f32 0xFF800000#32) hred hu)))))
      (broadcastInDim S100000x40 ![0, 1] hrows
        (Host.log
          (broadcastInDim S100000x1 ![0] hcol
            (Host.reduceAdd
              (Host.exp
                (subf x
                  (broadcastInDim S100000x40 ![0, 1] hrows
                    (broadcastInDim S100000x1 ![0] hcol
                      (maximumf (broadcastInDim S100000 ![] h0 (constant (F := Ideal) S_ .f32 0xFF800000#32))
                        (Host.reduce FloatOps.maximumf x (constant (F := Ideal) S_ .f32 0xFF800000#32) hred hu))))))
              (constant (F := Ideal) S_ .f32 0x00000000#32) hred hu)))) (ix2 p q)
      = logSoftmaxRow s q := by
  have hrow : (fun r : Fin 40 => x (ix2 p r)) = s := funext hs
  rw [subf_apply, subf_apply, columnBroadcast_apply, column_apply, rowMaxR_apply, hrow, hs q,
    columnBroadcast_apply, hostLog_apply, column_apply, rowSumR_apply]
  refine congrArg (fun t => (s q - rowMax40 s) - Ideal.log t) (Finset.sum_congr rfl fun r _ => ?_)
  rw [hostExp_apply, subf_apply, columnBroadcast_apply, column_apply, rowMaxR_apply, hrow, hs r]

/-- The biased array at (p, q): the aggregate's entry plus the bias's entry q. -/
private theorem biased_apply (h1 : S40.BroadcastsInDim S1x40 (![1] : Fin 1 → Fin S1x40.rank))
    (h2 : S1x40.BroadcastsInDim S100000x40 (![0, 1] : Fin 2 → Fin S100000x40.rank))
    (a : FVec Ideal S100000x40 .f32) (b : FVec Ideal S40 .f32) (p : Fin 100000) (q : Fin 40) :
    addf a (broadcastInDim S100000x40 ![0, 1] h2 (broadcastInDim S1x40 ![1] h1 b)) (ix2 p q) = a (ix2 p q) + b (ix1 q) := by
  rw [addf_apply, rowBroadcast_apply]

/-- The reference's last stage at (p, q): the shifted log-softmax of the row s r = a[p, r] + b[r]. -/
private theorem logSoftmaxR_apply (a : (⟨S100000x40, .f32⟩ : BufTy).Contents (Elt Ideal)) (b : (⟨S40, .f32⟩ : BufTy).Contents (Elt Ideal))
    (p : Fin 100000) (q : Fin 40) :
    logSoftmaxR (F := Ideal) a b (ix2 p q) = logSoftmaxRow (fun r => a (ix2 p r) + b (ix1 r)) q := by
  unfold logSoftmaxR
  exact logSoftmaxOps_apply _ _ _ _ _ _ p (fun r => a (ix2 p r) + b (ix1 r)) (fun r => biased_apply _ _ a b p r) q

/-- The index-level formula at (p, q) is the shifted log-softmax of the row s r = a[p, r] + b[0, r]. -/
private theorem biasLogSoftmax_apply (a : S100000x40.Idx → EReal) (b : S1x40.Idx → EReal) (p : Fin 100000) (q : Fin 40) :
    biasLogSoftmax a b (ix2 p q) = logSoftmaxRow (fun r => a (ix2 p r) + b (ix2 (n0 := 1) (n1 := 40) 0 r)) q := rfl

theorem logSoftmaxR_eq (a : (⟨S100000x40, .f32⟩ : BufTy).Contents (Elt Ideal)) (b : (⟨S40, .f32⟩ : BufTy).Contents (Elt Ideal)) :
    logSoftmaxR (F := Ideal) a b = biasLogSoftmax a (rowK40 (F := Ideal) b) := by
  funext i
  obtain ⟨p, q, rfl⟩ : ∃ (p : Fin 100000) (q : Fin 40), i = ix2 p q := ⟨i 0, i 1, eq_ix2 i⟩
  rw [logSoftmaxR_apply, biasLogSoftmax_apply]
  exact congrArg (fun s => logSoftmaxRow s q) (funext fun r => by rw [rowK40_apply])

end Cert.Gcn

end
-- ==== Proof.KernelValue.lean ====
/-
  The kernel program's result, layer by layer.  Each dense product the chip computes from bf16-rounded operands is,
  over the extended reals, the reference's host product of the unrounded operands (a rounding is the identity there and
  both are the same finite sum); the sparse aggregation between a product and the next stage is the same function in
  both programs; each bias stage on the chip is the reference's bias add and clamp (and residual add), and the last
  stage its bias add and row-wise log-softmax.  So the array the last region leaves is the reference's function of the
  twelve arguments.
-/
import proofs.«106134_j40956808135034_1_alg».proof.Proof.KernelHost
import proofs.«106134_j40956808135034_1_alg».proof.Proof.KernelCarry
import proofs.«106134_j40956808135034_1_alg».proof.Proof.RegionMatmul
import proofs.«106134_j40956808135034_1_alg».proof.Proof.RegionBias
import proofs.«106134_j40956808135034_1_alg».proof.Proof.RegionSoftmax
import proofs.«106134_j40956808135034_1_alg».proof.Proof.RefDense
import proofs.«106134_j40956808135034_1_alg».proof.Proof.RefSoftmax

set_option maxRecDepth 16384

noncomputable section

namespace Cert.Gcn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The chip's product of rounded operands is the reference's product -/

/-- Over the extended reals a rounding is the identity, and both products are the same finite sum: stated over
    variables, so that no layer's value is ever opened to see it. -/
theorem prod128 (X : (⟨S100000x128, .f32⟩ : BufTy).Contents (Elt Ideal)) (Wt : (⟨S128x128, .f32⟩ : BufTy).Contents (Elt Ideal)) :
    mm128 (truncf (F := Ideal) (s := S100000x128) (φ := .f32) .bf16 X bitsLt_bf16_f32)
        (truncf (F := Ideal) (s := S128x128) (φ := .f32) .bf16 Wt bitsLt_bf16_f32) = dotR128 X Wt :=
  (dotR128_eq X Wt).symm

theorem prod40 (X : (⟨S100000x128, .f32⟩ : BufTy).Contents (Elt Ideal)) (Wt : (⟨S128x40, .f32⟩ : BufTy).Contents (Elt Ideal)) :
    mm40 (truncf (F := Ideal) (s := S100000x128) (φ := .f32) .bf16 X bitsLt_bf16_f32)
        (truncf (F := Ideal) (s := S128x40) (φ := .f32) .bf16 Wt bitsLt_bf16_f32) = dotR40 X Wt :=
  (dotR40_eq X Wt).symm

/-! ## The reference's layers, as functions of the launch memory -/

/-- The first layer's output in the reference's form. -/
def h1R (c : Dev nD) : (⟨S100000x128, .f32⟩ : BufTy).Contents (Elt Ideal) :=
  reluR (aggR128 (dotR128 (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) (m ((c.tc : Thread nD τ).loc main_arg5))

/-- The second layer's output: its stage plus its input. -/
def h2R (c : Dev nD) : (⟨S100000x128, .f32⟩ : BufTy).Contents (Elt Ideal) :=
  addf (reluR (aggR128 (dotR128 (h1R m c) (m ((c.tc : Thread nD τ).loc main_arg6))) (m ((c.tc : Thread nD τ).loc main_arg1)) (m ((c.tc : Thread nD τ).loc main_arg2)) (m ((c.tc : Thread nD τ).loc main_arg3))) (m ((c.tc : Thread nD τ).loc main_arg7))) (h1R m c)

/-- The third layer's output: its stage plus its input. -/
def h3R (c : Dev nD) : (⟨S100000x128, .f32⟩ : BufTy).Contents (Elt Ideal) :=
  addf (reluR (aggR128 (dotR128 (h2R m c) (m ((c.tc : Thread nD τ).loc main_arg8))) (m ((c.tc : Thread nD τ).loc main_arg1)) (m ((c.tc : Thread nD τ).loc main_arg2)) (m ((c.tc : Thread nD τ).loc main_arg3))) (m ((c.tc : Thread nD τ).loc main_arg9))) (h2R m c)

theorem refOut_layers (c : Dev nD) :
    refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      = logSoftmaxR (aggR40 (dotR40 (h3R m c) (m ((c.tc : Thread nD τ).loc main_arg10))) (m ((c.tc : Thread nD τ).loc main_arg1)) (m ((c.tc : Thread nD τ).loc main_arg2)) (m ((c.tc : Thread nD τ).loc main_arg3))) (m ((c.tc : Thread nD τ).loc main_arg11)) := rfl

/-! ## Layer one -/

theorem layer1 (c : Dev nD) : (W4 m ρ c (Proc.devRef .tc main_v17) : (⟨S100000x128, .f32⟩ : BufTy).Contents (Elt Ideal)) = h1R m c := by
  have a1 := args_W2 m ρ c main_arg1 (by simp [argRefs])
  have a2 := args_W2 m ρ c main_arg2 (by simp [argRefs])
  have a3 := args_W2 m ρ c main_arg3 (by simp [argRefs])
  have a5 := args_W2 m ρ c main_arg5 (by simp [argRefs])
  have ex : V1 m ρ c main_v0 = _ := stretch0_x (W0 m ρ c)
  have ew : V1 m ρ c main_v1 = _ := stretch0_w (W0 m ρ c)
  -- the product: a rounding is the identity over the extended reals, and both sides are the same finite sum
  have eprod : (W2 m ρ c (Proc.devRef .tc main_v2) : (⟨S100000x128, .f32⟩ : BufTy).Contents (Elt Ideal)) = dotR128 (m ((c.tc : Thread nD τ).loc main_arg0)) (m ((c.tc : Thread nD τ).loc main_arg4)) := by
    refine ((W2_arr m ρ c 2).trans (region0 (V1 m ρ) c)).trans ?_
    rw [ex, ew]
    exact prod128 _ _
  have eagg : V3 m ρ c main_v15 = aggR128 (dotR128 (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) := by
    refine (stretch1_agg (W2 m ρ c)).trans ?_
    rw [eprod, a1, a2, a3, aggK128_eq]
  have erow : V3 m ρ c main_v16 = rowK128 (m ((c.tc : Thread nD τ).loc main_arg5)) := by
    refine (stretch1_row (W2 m ρ c)).trans ?_
    rw [a5]
  refine ((W4_arr m ρ c 2).trans (region1 (V3 m ρ) c)).trans ?_
  rw [eagg, erow]
  exact (reluR_eq _ _).symm

/-! ## Layers two and three: the stage plus the layer's own input -/

theorem layer2 (c : Dev nD) : (W8 m ρ c (Proc.devRef .tc main_v35) : (⟨S100000x128, .f32⟩ : BufTy).Contents (Elt Ideal)) = h2R m c := by
  have a1 := args_W6 m ρ c main_arg1 (by simp [argRefs])
  have a2 := args_W6 m ρ c main_arg2 (by simp [argRefs])
  have a3 := args_W6 m ρ c main_arg3 (by simp [argRefs])
  have ab := args_W6 m ρ c main_arg7 (by simp [argRefs])
  have aw := args_W4 m ρ c main_arg6 (by simp [argRefs])
  have hin : (W4 m ρ c (Proc.devRef .tc main_v17) : (⟨S100000x128, .f32⟩ : BufTy).Contents (Elt Ideal)) = h1R m c := layer1 m ρ c
  have ex : V5 m ρ c main_v18 = _ := stretch2_x (W4 m ρ c)
  have ew : V5 m ρ c main_v19 = _ := stretch2_w (W4 m ρ c)
  -- the product: a rounding is the identity over the extended reals, and both sides are the same finite sum
  have eprod : (W6 m ρ c (Proc.devRef .tc main_v20) : (⟨S100000x128, .f32⟩ : BufTy).Contents (Elt Ideal)) = dotR128 (h1R m c) (m ((c.tc : Thread nD τ).loc main_arg6)) := by
    refine ((W6_arr m ρ c 2).trans (region2 (V5 m ρ) c)).trans ?_
    rw [ex, ew, hin, aw]
    exact prod128 _ _
  have eagg : V7 m ρ c main_v33 = aggR128 (dotR128 (h1R m c) (m ((c.tc : Thread nD τ).loc main_arg6))) (m ((c.tc : Thread nD τ).loc main_arg1)) (m ((c.tc : Thread nD τ).loc main_arg2)) (m ((c.tc : Thread nD τ).loc main_arg3)) := by
    refine (stretch3_agg (W6 m ρ c)).trans ?_
    rw [eprod, a1, a2, a3, aggK128_eq]
  have erow : V7 m ρ c main_v34 = rowK128 (m ((c.tc : Thread nD τ).loc main_arg7)) := by
    refine (stretch3_row (W6 m ρ c)).trans ?_
    rw [ab]
  have eres : V7 m ρ c main_v17 = h1R m c := (keep_v17 m ρ c).trans hin
  refine ((W8_arr m ρ c 3).trans (region3 (V7 m ρ) c)).trans ?_
  rw [eagg, erow, eres]
  unfold h2R
  exact (reluR_res_eq _ _ _).symm

theorem layer3 (c : Dev nD) : (W12 m ρ c (Proc.devRef .tc main_v53) : (⟨S100000x128, .f32⟩ : BufTy).Contents (Elt Ideal)) = h3R m c := by
  have a1 := args_W10 m ρ c main_arg1 (by simp [argRefs])
  have a2 := args_W10 m ρ c main_arg2 (by simp [argRefs])
  have a3 := args_W10 m ρ c main_arg3 (by simp [argRefs])
  have ab := args_W10 m ρ c main_arg9 (by simp [argRefs])
  have aw := args_W8 m ρ c main_arg8 (by simp [argRefs])
  have hin : (W8 m ρ c (Proc.devRef .tc main_v35) : (⟨S100000x128, .f32⟩ : BufTy).Contents (Elt Ideal)) = h2R m c := layer2 m ρ c
  have ex : V9 m ρ c main_v36 = _ := stretch4_x (W8 m ρ c)
  have ew : V9 m ρ c main_v37 = _ := stretch4_w (W8 m ρ c)
  -- the product: a rounding is the identity over the extended reals, and both sides are the same finite sum
  have eprod : (W10 m ρ c (Proc.devRef .tc main_v38) : (⟨S100000x128, .f32⟩ : BufTy).Contents (Elt Ideal)) = dotR128 (h2R m c) (m ((c.tc : Thread nD τ).loc main_arg8)) := by
    refine ((W10_arr m ρ c 2).trans (region4 (V9 m ρ) c)).trans ?_
    rw [ex, ew, hin, aw]
    exact prod128 _ _
  have eagg : V11 m ρ c main_v51 = aggR128 (dotR128 (h2R m c) (m ((c.tc : Thread nD τ).loc main_arg8))) (m ((c.tc : Thread nD τ).loc main_arg1)) (m ((c.tc : Thread nD τ).loc main_arg2)) (m ((c.tc : Thread nD τ).loc main_arg3)) := by
    refine (stretch5_agg (W10 m ρ c)).trans ?_
    rw [eprod, a1, a2, a3, aggK128_eq]
  have erow : V11 m ρ c main_v52 = rowK128 (m ((c.tc : Thread nD τ).loc main_arg9)) := by
    refine (stretch5_row (W10 m ρ c)).trans ?_
    rw [ab]
  have eres : V11 m ρ c main_v35 = h2R m c := (keep_v35 m ρ c).trans hin
  refine ((W12_arr m ρ c 3).trans (region5 (V11 m ρ) c)).trans ?_
  rw [eagg, erow, eres]
  unfold h3R
  exact (reluR_res_eq _ _ _).symm

/-! ## Layer four and the whole -/

theorem layer4 (c : Dev nD) : (W16 m ρ c (Proc.devRef .tc main_v71) : (⟨S100000x40, .f32⟩ : BufTy).Contents (Elt Ideal))
    = logSoftmaxR (aggR40 (dotR40 (h3R m c) (m ((c.tc : Thread nD τ).loc main_arg10))) (m ((c.tc : Thread nD τ).loc main_arg1)) (m ((c.tc : Thread nD τ).loc main_arg2)) (m ((c.tc : Thread nD τ).loc main_arg3))) (m ((c.tc : Thread nD τ).loc main_arg11)) := by
  have a1 := args_W14 m ρ c main_arg1 (by simp [argRefs])
  have a2 := args_W14 m ρ c main_arg2 (by simp [argRefs])
  have a3 := args_W14 m ρ c main_arg3 (by simp [argRefs])
  have ab := args_W14 m ρ c main_arg11 (by simp [argRefs])
  have aw := args_W12 m ρ c main_arg10 (by simp [argRefs])
  have hin : (W12 m ρ c (Proc.devRef .tc main_v53) : (⟨S100000x128, .f32⟩ : BufTy).Contents (Elt Ideal)) = h3R m c := layer3 m ρ c
  have ex : V13 m ρ c main_v54 = _ := stretch6_x (W12 m ρ c)
  have ew : V13 m ρ c main_v55 = _ := stretch6_w (W12 m ρ c)
  have eprod : (W14 m ρ c (Proc.devRef .tc main_v56) : (⟨S100000x40, .f32⟩ : BufTy).Contents (Elt Ideal)) = dotR40 (h3R m c) (m ((c.tc : Thread nD τ).loc main_arg10)) := by
    refine ((W14_arr m ρ c 2).trans (region6 (V13 m ρ) c)).trans ?_
    rw [ex, ew, hin, aw]
    exact prod40 _ _
  have eagg : V15 m ρ c main_v69 = aggR40 (dotR40 (h3R m c) (m ((c.tc : Thread nD τ).loc main_arg10))) (m ((c.tc : Thread nD τ).loc main_arg1)) (m ((c.tc : Thread nD τ).loc main_arg2)) (m ((c.tc : Thread nD τ).loc main_arg3)) := by
    refine (stretch7_agg (W14 m ρ c)).trans ?_
    rw [eprod, a1, a2, a3, aggK40_eq]
  have erow : V15 m ρ c main_v70 = rowK40 (m ((c.tc : Thread nD τ).loc main_arg11)) := by
    refine (stretch7_row (W14 m ρ c)).trans ?_
    rw [ab]
  refine ((W16_arr m ρ c 2).trans (region7 (V15 m ρ) c)).trans ?_
  rw [eagg, erow]
  exact (logSoftmaxR_eq _ _).symm

/-- The kernel program's result array after the run, as the reference's function of the twelve argument arrays. -/
theorem kernel_value (c : Dev nD) :
    (W16 m ρ c (Proc.devRef .tc main_v71) : (⟨S100000x40, .f32⟩ : BufTy).Contents (Elt Ideal))
      = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (layer4 m ρ c).trans (refOut_layers m c).symm

end Cert.Gcn

end
-- ==== Proof.RefValue.lean ====
/-
  The reference program read layer by layer.  Its one sequence of host operations is cut after each layer's output;
  the contents after a cut are the contents before it with that layer's buffers written, so the result is the last
  layer's function of the third layer's output, that the third layer's function of the second's, and so on down to the
  arguments, which no operation writes.
-/
import proofs.«106134_j40956808135034_1_alg».proof.Proof.RefRun
import proofs.«106134_j40956808135034_1_alg».proof.Proof.Spec
import Idealize.ShloMosaic.Lib.Pipeline.Frame
import Idealize.ShloMosaic.Lib.StableHlo.Run

set_option maxRecDepth 16384

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-! ## The reference's operations, one list per layer -/

/-- Layer one: the product, the aggregation, the bias, the clamp. -/
abbrev refOps1 : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v9 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf ]

/-- Layer two, ending in the sum with its input. -/
abbrev refOps2 : List (HloOp τ sig (Elt F)) :=
  [ binary main_v17 main_arg6 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x128 ![0, 1] bcast_S1600000x1_S1600000x128_0_1 : (⟨S1600000x1, .f32⟩ : BufTy).Contents (Elt F) → (⟨S1600000x128, .f32⟩ : BufTy).Contents (Elt F)),
    binary main_v25 main_v27 main_v28 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v29 (broadcastInDim S100000x128 ![] bcast_S_S100000x128 : (⟨S_, .f32⟩ : BufTy).Contents (Elt F) → (⟨S100000x128, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg7 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v34) (TRef.of (T := ⟨S100000x128, .f32⟩) main_call1_v0) (TRef.of (T := ⟨S100000x128, .f32⟩) main_v35) maximumf,
    binary main_v35 main_v17 main_v36 (addf : (⟨S100000x128, .f32⟩ : BufTy).Contents (Elt F) → (⟨S100000x128, .f32⟩ : BufTy).Contents (Elt F) → (⟨S100000x128, .f32⟩ : BufTy).Contents (Elt F)) ]

/-- Layer three, ending in the sum with its input. -/
abbrev refOps3 : List (HloOp τ sig (Elt F)) :=
  [ binary main_v36 main_arg8 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v38 (broadcastInDim S1600000 ![] bcast_S_S1600000 : (⟨S_, .i32⟩ : BufTy).Contents (Elt F) → (⟨S1600000, .i32⟩ : BufTy).Contents (Elt F)),
    binary main_arg1 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v40 (broadcastInDim S1600000 ![] bcast_S_S1600000 : (⟨S_, .i32⟩ : BufTy).Contents (Elt F) → (⟨S1600000, .i32⟩ : BufTy).Contents (Elt F)),
    binary main_arg1 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_arg1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v37 main_v43 main_v44 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v45 (broadcastInDim S1600000x1 ![0] bcast_S1600000_S1600000x1_0 : (⟨S1600000, .f32⟩ : BufTy).Contents (Elt F) → (⟨S1600000x1, .f32⟩ : BufTy).Contents (Elt F)),
    unary main_v45 main_v46 (broadcastInDim S1600000x128 ![0, 1] bcast_S1600000x1_S1600000x128_0_1 : (⟨S1600000x1, .f32⟩ : BufTy).Contents (Elt F) → (⟨S1600000x128, .f32⟩ : BufTy).Contents (Elt F)),
    binary main_v44 main_v46 main_v47 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v48 (broadcastInDim S100000x128 ![] bcast_S_S100000x128 : (⟨S_, .f32⟩ : BufTy).Contents (Elt F) → (⟨S100000x128, .f32⟩ : BufTy).Contents (Elt F)),
    unary main_arg2 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v53) (TRef.of (T := ⟨S100000x128, .f32⟩) main_call2_v0) (TRef.of (T := ⟨S100000x128, .f32⟩) main_v54) maximumf,
    binary main_v54 main_v36 main_v55 (addf : (⟨S100000x128, .f32⟩ : BufTy).Contents (Elt F) → (⟨S100000x128, .f32⟩ : BufTy).Contents (Elt F) → (⟨S100000x128, .f32⟩ : BufTy).Contents (Elt F)) ]

/-- Layer four's host part: the product, the aggregation and the bias add. -/
abbrev refOps4 : List (HloOp τ sig (Elt F)) :=
  [ binary main_v55 main_arg10 main_v56 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_7 (constantI S_ 32 0#32),
    unary main_c_7 main_v57 (broadcastInDim S1600000 ![] bcast_S_S1600000 : (⟨S_, .i32⟩ : BufTy).Contents (Elt F) → (⟨S1600000, .i32⟩ : BufTy).Contents (Elt F)),
    binary main_arg1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v59 (broadcastInDim S1600000 ![] bcast_S_S1600000 : (⟨S_, .i32⟩ : BufTy).Contents (Elt F) → (⟨S1600000, .i32⟩ : BufTy).Contents (Elt F)),
    binary main_arg1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_arg1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg3 main_v64 (broadcastInDim S1600000x1 ![0] bcast_S1600000_S1600000x1_0 : (⟨S1600000, .f32⟩ : BufTy).Contents (Elt F) → (⟨S1600000x1, .f32⟩ : BufTy).Contents (Elt F)),
    unary main_v64 main_v65 (broadcastInDim S1600000x40 ![0, 1] bcast_S1600000x1_S1600000x40_0_1 : (⟨S1600000x1, .f32⟩ : BufTy).Contents (Elt F) → (⟨S1600000x40, .f32⟩ : BufTy).Contents (Elt F)),
    binary main_v63 main_v65 main_v66 (mulf : (⟨S1600000x40, .f32⟩ : BufTy).Contents (Elt F) → (⟨S1600000x40, .f32⟩ : BufTy).Contents (Elt F) → (⟨S1600000x40, .f32⟩ : BufTy).Contents (Elt F)),
    nullary main_cst_9 (constant S_ .f32 0x00000000#32),
    unary main_cst_9 main_v67 (broadcastInDim S100000x40 ![] bcast_S_S100000x40 : (⟨S_, .f32⟩ : BufTy).Contents (Elt F) → (⟨S100000x40, .f32⟩ : BufTy).Contents (Elt F)),
    unary main_arg2 main_v68 (broadcastInDim S1600000x1 ![0] bcast_S1600000_S1600000x1_0 : (⟨S1600000, .i32⟩ : BufTy).Contents (Elt F) → (⟨S1600000x1, .i32⟩ : BufTy).Contents (Elt F)),
    ternary main_v67 main_v68 main_v66 main_v69 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg11 main_v70 (broadcastInDim S1x40 ![1] bcast_S40_S1x40_1 : (⟨S40, .f32⟩ : BufTy).Contents (Elt F) → (⟨S1x40, .f32⟩ : BufTy).Contents (Elt F)),
    unary main_v70 main_v71 (broadcastInDim S100000x40 ![0, 1] bcast_S1x40_S100000x40_0_1 : (⟨S1x40, .f32⟩ : BufTy).Contents (Elt F) → (⟨S100000x40, .f32⟩ : BufTy).Contents (Elt F)),
    binary main_v69 main_v71 main_v72 (addf : (⟨S100000x40, .f32⟩ : BufTy).Contents (Elt F) → (⟨S100000x40, .f32⟩ : BufTy).Contents (Elt F) → (⟨S100000x40, .f32⟩ : BufTy).Contents (Elt F)) ]

/-- The log-softmax, first piece: each row's maximum (a max-reduce from -∞, then the maximum against a broadcast -∞). -/
abbrev refOps5 : List (HloOp τ sig (Elt F)) :=
  [ TRef.nullary (TRef.of (T := ⟨S_, .f32⟩) main_call3_cst) (constant S_ .f32 0xFF800000#32),
    TRef.binary (TRef.of (T := ⟨S100000x40, .f32⟩) main_v72) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Second piece: the row maximum broadcast back and subtracted. -/
abbrev refOps6 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v72) (TRef.of (T := ⟨S100000x40, .f32⟩) main_call3_v4) (TRef.of (T := ⟨S100000x40, .f32⟩) main_call3_v5) subf ]

/-- Third piece: the exponentials and each row's sum. -/
abbrev refOps7 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Fourth piece: the logarithm of the row sum broadcast back and subtracted. -/
abbrev refOps8 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v73) subf ]

set_option maxRecDepth 65536 in
theorem refOps_split : (Cert.ReferenceIdeal.ValueP.ops : List (HloOp τ sig (Elt F))) = refOps1 ++ (refOps2 ++ (refOps3 ++ (refOps4 ++ (refOps5 ++ (refOps6 ++ (refOps7 ++ refOps8)))))) := rfl

/-! ## What each layer's operations write, as a function of the contents they start from -/

set_option maxHeartbeats 4000000 in
theorem refLayer1 (W : Valuation τ sig (Elt F)) :
    StableHlo.after refOps1 W (Proc.devRef .tc main_v17)
      = reluR (aggR128 (dotR128 (W (Proc.devRef .tc main_arg0)) (W (Proc.devRef .tc main_arg4))) (W (Proc.devRef .tc main_arg1)) (W (Proc.devRef .tc main_arg2)) (W (Proc.devRef .tc main_arg3))) (W (Proc.devRef .tc main_arg5)) := by
  after_results_simp <;> rfl

set_option maxHeartbeats 4000000 in
theorem refLayer2 (W : Valuation τ sig (Elt F)) :
    StableHlo.after refOps2 W (Proc.devRef .tc main_v36)
      = addf (reluR (aggR128 (dotR128 (W (Proc.devRef .tc main_v17)) (W (Proc.devRef .tc main_arg6))) (W (Proc.devRef .tc main_arg1)) (W (Proc.devRef .tc main_arg2)) (W (Proc.devRef .tc main_arg3))) (W (Proc.devRef .tc main_arg7))) (W (Proc.devRef .tc main_v17)) := by
  after_results_simp <;> rfl

set_option maxHeartbeats 4000000 in
theorem refLayer3 (W : Valuation τ sig (Elt F)) :
    StableHlo.after refOps3 W (Proc.devRef .tc main_v55)
      = addf (reluR (aggR128 (dotR128 (W (Proc.devRef .tc main_v36)) (W (Proc.devRef .tc main_arg8))) (W (Proc.devRef .tc main_arg1)) (W (Proc.devRef .tc main_arg2)) (W (Proc.devRef .tc main_arg3))) (W (Proc.devRef .tc main_arg9))) (W (Proc.devRef .tc main_v36)) := by
  after_results_simp <;> rfl

set_option maxHeartbeats 4000000 in
theorem refLayer4 (W : Valuation τ sig (Elt F)) :
    StableHlo.after refOps4 W (Proc.devRef .tc main_v72)
      = addf (aggR40 (dotR40 (W (Proc.devRef .tc main_v55)) (W (Proc.devRef .tc main_arg10))) (W (Proc.devRef .tc main_arg1)) (W (Proc.devRef .tc main_arg2)) (W (Proc.devRef .tc main_arg3)))
          (broadcastInDim S100000x40 ![0, 1] bcast_S1x40_S100000x40_0_1 (broadcastInDim S1x40 ![1] bcast_S40_S1x40_1 (W (Proc.devRef .tc main_arg11)))) := by
  after_results_simp <;> rfl

/-! ### The row maximum, in three steps: the max-reduce from -∞, the broadcast -∞, their maximum -/

abbrev refOps5a : List (HloOp τ sig (Elt F)) :=
  [ TRef.nullary (TRef.of (T := ⟨S_, .f32⟩) main_call3_cst) (constant S_ .f32 0xFF800000#32),
    TRef.binary (TRef.of (T := ⟨S100000x40, .f32⟩) main_v72) (TRef.of (T := ⟨S_, .f32⟩) main_call3_cst) (TRef.of (T := ⟨S100000, .f32⟩) main_call3_v0) (fun x v => Host.reduce FloatOps.maximumf x v reducesTo_S100000x40_S100000_d1 h_S_) ]

abbrev refOps5b : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000) ]

abbrev refOps5c : List (HloOp τ sig (Elt F)) :=
  [ TRef.binary (TRef.of (T := ⟨S100000, .f32⟩) main_call3_v1) (TRef.of (T := ⟨S100000, .f32⟩) main_call3_v0) (TRef.of (T := ⟨S100000, .f32⟩) main_call3_v2) maximumf ]

theorem refOps5_split : (refOps5 : List (HloOp τ sig (Elt F))) = refOps5a ++ (refOps5b ++ refOps5c) := rfl

section RowMax
-- the max-reduce is compared argument by argument, never opened
attribute [local irreducible] Host.reduce
set_option maxHeartbeats 4000000 in
theorem refRowMax_reduce (W : Valuation τ sig (Elt F)) :
    StableHlo.after refOps5a W (Proc.devRef .tc main_call3_v0)
      = Host.reduce FloatOps.maximumf (W (Proc.devRef .tc main_v72)) (constant (F := F) S_ .f32 0xFF800000#32) reducesTo_S100000x40_S100000_d1 h_S_ := by
  after_results_simp <;> rfl
end RowMax

set_option maxHeartbeats 4000000 in
theorem refRowMax_bottom (W : Valuation τ sig (Elt F)) :
    StableHlo.after refOps5b W (Proc.devRef .tc main_call3_v1)
      = broadcastInDim S100000 ![] bcast_S_S100000 (constant (F := F) S_ .f32 0xFF800000#32) := by
  after_results_simp <;> rfl

set_option maxHeartbeats 4000000 in
theorem refRowMax_bottom_kept (W : Valuation τ sig (Elt F)) :
    StableHlo.after refOps5b W (Proc.devRef .tc main_call3_v0) = W (Proc.devRef .tc main_call3_v0) := by
  after_results_simp <;> rfl

set_option maxHeartbeats 4000000 in
theorem refRowMax_max (W : Valuation τ sig (Elt F)) :
    StableHlo.after refOps5c W (Proc.devRef .tc main_call3_v2)
      = maximumf (W (Proc.devRef .tc main_call3_v1)) (W (Proc.devRef .tc main_call3_v0)) := by
  after_results_simp <;> rfl

theorem refRowMax (W : Valuation τ sig (Elt F)) :
    StableHlo.after refOps5 W (Proc.devRef .tc main_call3_v2)
      = (maximumf (broadcastInDim S100000 ![] bcast_S_S100000 (constant (F := F) S_ .f32 0xFF800000#32))
        (Host.reduce FloatOps.maximumf (W (Proc.devRef .tc main_v72)) (constant (F := F) S_ .f32 0xFF800000#32) reducesTo_S100000x40_S100000_d1 h_S_)) := by
  rw [refOps5_split]
  simp only [StableHlo.after_append]
  rw [refRowMax_max, refRowMax_bottom, refRowMax_bottom_kept, refRowMax_reduce]

set_option maxHeartbeats 4000000 in
theorem refRowMax_kept (W : Valuation τ sig (Elt F)) :
    StableHlo.after refOps5 W (Proc.devRef .tc main_v72) = W (Proc.devRef .tc main_v72) := by
  after_results_simp <;> rfl

set_option maxHeartbeats 4000000 in
theorem refShifted (W : Valuation τ sig (Elt F)) :
    StableHlo.after refOps6 W (Proc.devRef .tc main_call3_v5)
      = subf (W (Proc.devRef .tc main_v72))
          (broadcastInDim S100000x40 ![0, 1] bcast_S100000x1_S100000x40_0_1
            (broadcastInDim S100000x1 ![0] bcast_S100000_S100000x1_0 (W (Proc.devRef .tc main_call3_v2)))) := by
  after_results_simp <;> rfl

set_option maxHeartbeats 4000000 in
theorem refRowSum (W : Valuation τ sig (Elt F)) :
    StableHlo.after refOps7 W (Proc.devRef .tc main_call3_v7)
      = Host.reduceAdd (Host.exp (W (Proc.devRef .tc main_call3_v5))) (constant (F := F) S_ .f32 0x00000000#32) reducesTo_S100000x40_S100000_d1 h_S_ := by
  after_results_simp <;> rfl

set_option maxHeartbeats 4000000 in
theorem refRowSum_kept (W : Valuation τ sig (Elt F)) :
    StableHlo.after refOps7 W (Proc.devRef .tc main_call3_v5) = W (Proc.devRef .tc main_call3_v5) := by
  after_results_simp <;> rfl

set_option maxHeartbeats 4000000 in
theorem refNormalised (W : Valuation τ sig (Elt F)) :
    StableHlo.after refOps8 W (Proc.devRef .tc main_v73)
      = subf (W (Proc.devRef .tc main_call3_v5))
          (broadcastInDim S100000x40 ![0, 1] bcast_S100000x1_S100000x40_0_1
            (Host.log (broadcastInDim S100000x1 ![0] bcast_S100000_S100000x1_0 (W (Proc.devRef .tc main_call3_v7))))) := by
  after_results_simp <;> rfl

/-! ## What a layer's operations leave alone: the arguments the later layers read -/

section Kept
set_option maxHeartbeats 4000000
theorem kept1_arg1 (W : Valuation τ sig (Elt F)) :
    StableHlo.after refOps1 W (Proc.devRef .tc main_arg1) = W (Proc.devRef .tc main_arg1) := by
  after_results_simp <;> rfl
theorem kept1_arg2 (W : Valuation τ sig (Elt F)) :
    StableHlo.after refOps1 W (Proc.devRef .tc main_arg2) = W (Proc.devRef .tc main_arg2) := by
  after_results_simp <;> rfl
theorem kept1_arg3 (W : Valuation τ sig (Elt F)) :
    StableHlo.after refOps1 W (Proc.devRef .tc main_arg3) = W (Proc.devRef .tc main_arg3) := by
  after_results_simp <;> rfl
theorem kept1_arg6 (W : Valuation τ sig (Elt F)) :
    StableHlo.after refOps1 W (Proc.devRef .tc main_arg6) = W (Proc.devRef .tc main_arg6) := by
  after_results_simp <;> rfl
theorem kept1_arg7 (W : Valuation τ sig (Elt F)) :
    StableHlo.after refOps1 W (Proc.devRef .tc main_arg7) = W (Proc.devRef .tc main_arg7) := by
  after_results_simp <;> rfl
theorem kept1_arg8 (W : Valuation τ sig (Elt F)) :
    StableHlo.after refOps1 W (Proc.devRef .tc main_arg8) = W (Proc.devRef .tc main_arg8) := by
  after_results_simp <;> rfl
theorem kept1_arg9 (W : Valuation τ sig (Elt F)) :
    StableHlo.after refOps1 W (Proc.devRef .tc main_arg9) = W (Proc.devRef .tc main_arg9) := by
  after_results_simp <;> rfl
theorem kept1_arg10 (W : Valuation τ sig (Elt F)) :
    StableHlo.after refOps1 W (Proc.devRef .tc main_arg10) = W (Proc.devRef .tc main_arg10) := by
  after_results_simp <;> rfl
theorem kept1_arg11 (W : Valuation τ sig (Elt F)) :
    StableHlo.after refOps1 W (Proc.devRef .tc main_arg11) = W (Proc.devRef .tc main_arg11) := by
  after_results_simp <;> rfl
theorem kept2_arg1 (W : Valuation τ sig (Elt F)) :
    StableHlo.after refOps2 W (Proc.devRef .tc main_arg1) = W (Proc.devRef .tc main_arg1) := by
  after_results_simp <;> rfl
theorem kept2_arg2 (W : Valuation τ sig (Elt F)) :
    StableHlo.after refOps2 W (Proc.devRef .tc main_arg2) = W (Proc.devRef .tc main_arg2) := by
  after_results_simp <;> rfl
theorem kept2_arg3 (W : Valuation τ sig (Elt F)) :
    StableHlo.after refOps2 W (Proc.devRef .tc main_arg3) = W (Proc.devRef .tc main_arg3) := by
  after_results_simp <;> rfl
theorem kept2_arg8 (W : Valuation τ sig (Elt F)) :
    StableHlo.after refOps2 W (Proc.devRef .tc main_arg8) = W (Proc.devRef .tc main_arg8) := by
  after_results_simp <;> rfl
theorem kept2_arg9 (W : Valuation τ sig (Elt F)) :
    StableHlo.after refOps2 W (Proc.devRef .tc main_arg9) = W (Proc.devRef .tc main_arg9) := by
  after_results_simp <;> rfl
theorem kept2_arg10 (W : Valuation τ sig (Elt F)) :
    StableHlo.after refOps2 W (Proc.devRef .tc main_arg10) = W (Proc.devRef .tc main_arg10) := by
  after_results_simp <;> rfl
theorem kept2_arg11 (W : Valuation τ sig (Elt F)) :
    StableHlo.after refOps2 W (Proc.devRef .tc main_arg11) = W (Proc.devRef .tc main_arg11) := by
  after_results_simp <;> rfl
theorem kept3_arg1 (W : Valuation τ sig (Elt F)) :
    StableHlo.after refOps3 W (Proc.devRef .tc main_arg1) = W (Proc.devRef .tc main_arg1) := by
  after_results_simp <;> rfl
theorem kept3_arg2 (W : Valuation τ sig (Elt F)) :
    StableHlo.after refOps3 W (Proc.devRef .tc main_arg2) = W (Proc.devRef .tc main_arg2) := by
  after_results_simp <;> rfl
theorem kept3_arg3 (W : Valuation τ sig (Elt F)) :
    StableHlo.after refOps3 W (Proc.devRef .tc main_arg3) = W (Proc.devRef .tc main_arg3) := by
  after_results_simp <;> rfl
theorem kept3_arg10 (W : Valuation τ sig (Elt F)) :
    StableHlo.after refOps3 W (Proc.devRef .tc main_arg10) = W (Proc.devRef .tc main_arg10) := by
  after_results_simp <;> rfl
theorem kept3_arg11 (W : Valuation τ sig (Elt F)) :
    StableHlo.after refOps3 W (Proc.devRef .tc main_arg11) = W (Proc.devRef .tc main_arg11) := by
  after_results_simp <;> rfl
end Kept

/-! ## The whole run -/

/-- The reference's result is its four layers composed, as a function of the launch contents of its arguments. -/
theorem ref_value (m : (ℓ : Loc nD τ sig) → Buf (Elt F) ℓ) (c : Dev nD) :
    Cert.ReferenceIdeal.ValueP.res_main_v73 m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v73
  rw [refOps_split]
  simp only [StableHlo.after_append]
  rw [refNormalised, refRowSum, refRowSum_kept, refShifted, refRowMax, refRowMax_kept, refLayer4, refLayer3, refLayer2, refLayer1]
  rw [kept3_arg1, kept3_arg2, kept3_arg3, kept3_arg10, kept3_arg11,
    kept2_arg1, kept2_arg2, kept2_arg3, kept2_arg8, kept2_arg9, kept2_arg10, kept2_arg11,
    kept1_arg1, kept1_arg2, kept1_arg3, kept1_arg6, kept1_arg7, kept1_arg8, kept1_arg9, kept1_arg10, kept1_arg11]
  rfl

end Cert.Gcn

end
-- ==== Proof.lean ====
/-
  A four-layer graph convolution on a TPU against its jnp reference, over the extended reals.

  The kernel program computes each layer's dense product on the chip from bf16-rounded operands (a grid of 25 blocks of
  4000 rows), leaves the sparse gather / weighted scatter-add to host code, and computes each layer's bias stage on the
  chip (bias and clamp at zero; the same plus the layer's input; bias and row-wise log-softmax).  The reference does all
  of it in host code.  Over the extended reals a rounding is the identity and the chip's product is the host's (the same
  finite sum), the sparse aggregation is the same function in both programs, and each bias stage is the reference's.

  The three frames: the two kernel programs' are generated; the reference's is its run with the result dropped.  The
  idealization rewrote no operation, so `preserves` holds trivially.  The algebraic claim names the common result
  (`Cert.Gcn.refOut` of the argument arrays) and reads it off both runs: the kernel program's through its last
  boundary's contents (`Cert.Gcn.kernel_value`), the reference's through its operations read layer by layer
  (`Cert.Gcn.ref_value`).
-/
import proofs.«106134_j40956808135034_1_alg».proof.Defs
import proofs.«106134_j40956808135034_1_alg».proof.Proof.Gen.Kernel
import proofs.«106134_j40956808135034_1_alg».proof.Proof.Gen.Kernel.Frame
import proofs.«106134_j40956808135034_1_alg».proof.Proof.Gen.KernelIdeal
import proofs.«106134_j40956808135034_1_alg».proof.Proof.Gen.KernelIdeal.Frame
import proofs.«106134_j40956808135034_1_alg».proof.Proof.Gen.ReferenceIdeal
import proofs.«106134_j40956808135034_1_alg».proof.Proof.Gen.Pre_finite_inputs
import proofs.«106134_j40956808135034_1_alg».proof.Proof.KernelLaunch
import proofs.«106134_j40956808135034_1_alg».proof.Proof.KernelValue
import proofs.«106134_j40956808135034_1_alg».proof.Proof.RefRun
import proofs.«106134_j40956808135034_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the reference's function of the (agreeing) argument arrays. -/
theorem algebraic : Cert.algebraic_KernelIdeal_ReferenceIdeal := by
  intro m ρ m' ρ' _ hagree
  refine ⟨fun c => Cert.Gcn.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Gcn.kernel_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.ref_value m' c]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
